-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S16x1024x8192 : Shape := ⟨3, ![16, 1024, 8192]⟩
abbrev S16x4096x1024 : Shape := ⟨3, ![16, 4096, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S16x1024x8192 : S_.BroadcastsInDim S16x1024x8192 (![] : Fin 0 → Fin S16x1024x8192.rank)
  reducesTo_S16x1024x8192_S_d0_1_2 : S16x1024x8192.ReducesTo [0, 1, 2] S_
  bcast_S_S16x4096x1024 : S_.BroadcastsInDim S16x4096x1024 (![] : Fin 0 → Fin S16x4096x1024.rank)
  reducesTo_S16x4096x1024_S_d0_1_2 : S16x4096x1024.ReducesTo [0, 1, 2] S_

variable [Facts]

def fn {F : FTy → Type} [FloatOps F] (main_arg0 : FVec F S32768x1024 .f32) (main_arg1 : FVec F S16x1024x8192 .f32) (main_arg2 : FVec F S16x4096x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S16x1024x8192 .f32 := Host.absf main_arg1
  let main_cst_0 : FVec F S_ .f32 := constant S_ .f32 0x7F800000#32
  let main_v5 : FVec F S16x1024x8192 .f32 := broadcastInDim S16x1024x8192 ![] bcast_S_S16x1024x8192 main_cst_0
  let main_v6 : IVec S16x1024x8192 1 := cmpf .olt main_v4 main_v5
  let main_c_1 : IVec S_ 1 := constantI S_ 1 1#1
  let main_v7 : IVec S_ 1 := (fun x v => Host.reduce IntOp.andi x v reducesTo_S16x1024x8192_S_d0_1_2 h_S_) main_v6 main_c_1
  let main_v8 : IVec S_ 1 := andi main_v3 main_v7
  let main_v9 : FVec F S16x4096x1024 .f32 := Host.absf main_arg2
  let main_cst_2 : FVec F S_ .f32 := constant S_ .f32 0x7F800000#32
  let main_v10 : FVec F S16x4096x1024 .f32 := broadcastInDim S16x4096x1024 ![] bcast_S_S16x4096x1024 main_cst_2
  let main_v11 : IVec S16x4096x1024 1 := cmpf .olt main_v9 main_v10
  let main_c_3 : IVec S_ 1 := constantI S_ 1 1#1
  let main_v12 : IVec S_ 1 := (fun x v => Host.reduce IntOp.andi x v reducesTo_S16x4096x1024_S_d0_1_2 h_S_) main_v11 main_c_3
  let main_v13 : IVec S_ 1 := andi main_v8 main_v12
  main_v13
-- ==== Kernel.lean ====
abbrev S32768x1024 : Shape := ⟨2, ![32768, 1024]⟩
abbrev S16x1024x8192 : Shape := ⟨3, ![16, 1024, 8192]⟩
abbrev S16x4096x1024 : Shape := ⟨3, ![16, 4096, 1024]⟩
abbrev S16x2048x1024 : Shape := ⟨3, ![16, 2048, 1024]⟩
abbrev S1x1024x1024 : Shape := ⟨3, ![1, 1024, 1024]⟩
abbrev S1x1024x256 : Shape := ⟨3, ![1, 1024, 256]⟩
abbrev S1x256x1024 : Shape := ⟨3, ![1, 256, 1024]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S16x1024x8192, .f32⟩
  | .hbm, ⟨2, _⟩ => ⟨S16x4096x1024, .f32⟩
  | .hbm, ⟨3, _⟩ => ⟨S16x2048x1024, .f32⟩
  | .hbm, ⟨4, _⟩ => ⟨S16x2048x1024, .f32⟩
  | .hbm, ⟨5, _⟩ => ⟨S32768x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S32768x1024_S16x2048x1024 : S32768x1024.ShapeCasts S16x2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S1024x1024_S1x1024x1024 : S1024x1024.ShapeCasts S1x1024x1024
  shapeCasts_S16x2048x1024_S32768x1024 : S16x2048x1024.ShapeCasts S32768x1024
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x2048x1024.size a
  hwx0_0 : ∀ i : grid0.Coords, EltTy.bits .f32 = 32 ∨ (Rect.block (s := S16x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S16x1024x8192.size a
  hwx0_1 : ∀ i : grid0.Coords, EltTy.bits .f32 = 32 ∨ (Rect.block (s := S16x1024x8192) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S16x1024x8192.size a
  hwx0_2 : ∀ i : grid0.Coords, EltTy.bits .f32 = 32 ∨ (Rect.block (s := S16x1024x8192) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S16x4096x1024.size a
  hwx0_3 : ∀ i : grid0.Coords, EltTy.bits .f32 = 32 ∨ (Rect.block (s := S16x4096x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S16x2048x1024.size a
  hwx0_4 : ∀ i : grid0.Coords, EltTy.bits .f32 = 32 ∨ (Rect.block (s := S16x2048x1024) S1x1024x1024.size (cc0_transform_4 i) (hinb0_4 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S16x1024x8192 : Shape := ⟨3, ![16, 1024, 8192]⟩
abbrev S16x4096x1024 : Shape := ⟨3, ![16, 4096, 1024]⟩
abbrev S16x2048x1024 : Shape := ⟨3, ![16, 2048, 1024]⟩
abbrev S16x2048x8192 : Shape := ⟨3, ![16, 2048, 8192]⟩
abbrev S16x2048x4096 : Shape := ⟨3, ![16, 2048, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x1024x8192, .f32⟩
  | .hbm, ⟨2, _⟩ => ⟨S16x4096x1024, .f32⟩
  | .hbm, ⟨3, _⟩ => ⟨S16x2048x1024, .f32⟩
  | .hbm, ⟨4, _⟩ => ⟨S16x2048x8192, .f32⟩
  | .hbm, ⟨5, _⟩ => ⟨S16x2048x4096, .f32⟩
  | .hbm, ⟨6, _⟩ => ⟨S16x2048x4096, .f32⟩
  | .hbm, ⟨7, _⟩ => ⟨S16x2048x4096, .f32⟩
  | .hbm, ⟨8, _⟩ => ⟨S16x2048x4096, .f32⟩
  | .hbm, ⟨9, _⟩ => ⟨S_, .f32⟩
  | .hbm, ⟨10, _⟩ => ⟨S16x2048x4096, .f32⟩
  | .hbm, ⟨11, _⟩ => ⟨S16x2048x4096, .f32⟩
  | .hbm, ⟨12, _⟩ => ⟨S_, .f32⟩
  | .hbm, ⟨13, _⟩ => ⟨S16x2048x4096, .f32⟩
  | .hbm, ⟨14, _⟩ => ⟨S16x2048x4096, .f32⟩
  | .hbm, ⟨15, _⟩ => ⟨S16x2048x4096, .f32⟩
  | .hbm, ⟨16, _⟩ => ⟨S16x2048x4096, .f32⟩
  | .hbm, ⟨17, _⟩ => ⟨S16x2048x1024, .f32⟩
  | .hbm, ⟨18, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S32768x1024_S16x2048x1024 : S32768x1024.ShapeCasts S16x2048x1024
  slices_S16x2048x8192_S16x2048x4096_0_0_0 : S16x2048x8192.Slices ![0, 0, 0] S16x2048x4096
  slices_S16x2048x8192_S16x2048x4096_0_0_4096 : S16x2048x8192.Slices ![0, 0, 4096] S16x2048x4096
  bcast_S_S16x2048x4096 : S_.BroadcastsInDim S16x2048x4096 (![] : Fin 0 → Fin S16x2048x4096.rank)
  shapeCasts_S16x2048x1024_S32768x1024 : S16x2048x1024.ShapeCasts S32768x1024
  dot_S16x2048x1024_S16x1024x8192_S16x2048x8192_2_1_1_2_0_0_wf : DotDims.WF S16x2048x1024 S16x1024x8192 S16x2048x8192 [2] [1] [1] [2] [0] [0]
  dot_S16x2048x4096_S16x4096x1024_S16x2048x1024_2_1_1_2_0_0_wf : DotDims.WF S16x2048x4096 S16x4096x1024 S16x2048x1024 [2] [1] [1] [2] [0] [0]

variable [Facts₀]

def dot_S16x2048x1024_S16x1024x8192_S16x2048x8192_2_1_1_2_0_0 : DotDims S16x2048x1024 S16x1024x8192 S16x2048x8192 where
  lhsContracting := [2]
  rhsContracting := [1]
  lhsNonContracting := [1]
  rhsNonContracting := [2]
  lhsBatch := [0]
  rhsBatch := [0]
  wf := dot_S16x2048x1024_S16x1024x8192_S16x2048x8192_2_1_1_2_0_0_wf
def dot_S16x2048x4096_S16x4096x1024_S16x2048x1024_2_1_1_2_0_0 : DotDims S16x2048x4096 S16x4096x1024 S16x2048x1024 where
  lhsContracting := [2]
  rhsContracting := [1]
  lhsNonContracting := [1]
  rhsNonContracting := [2]
  lhsBatch := [0]
  rhsBatch := [0]
  wf := dot_S16x2048x4096_S16x4096x1024_S16x2048x1024_2_1_1_2_0_0_wf

class Facts : Prop extends Facts₀ where

variable [Facts]
-- ==== Proof.KernelFr.Runs.lean ====
/-
  What the two runs of the kernel body share, and @main around the region.

  @main is one reshape of the hidden states to (expert, token, hidden), the kernel region, and one reshape of the
  region's result back to (token, hidden). The region's grid is (expert e, token tile t, intermediate tile i) =
  16 × 2 × 16, the last axis innermost: the body resets its scratch accumulator where i = 0 and adds one
  intermediate tile's contribution at every point, so the points fall into two cases by their position mod 16.
  Stated here: the arrays as the region finds them, each input window's block at a point and that the body finds it
  in the window's staging buffer whether or not the pipeline fetched it there, the branch condition in closed form
  over the grid, and the staging and scratch memrefs the runs are stated over.
-/
import proofs.«118436_j1614907703546_1_alg».proof.Proof.Gen.Kernel.Launch
import proofs.«118436_j1614907703546_1_alg».proof.Proof.Gen.Kernel.Skeleton
import proofs.«118436_j1614907703546_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the first reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main reduces to the region continued by the second reshape, entered at the contents after the first. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show _ from hostOps0_sub)
    (show _ from hostOps0_fresh) main_chain

/-- The first reshape writes none of the three arguments: each reaches the region as launched. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results
theorem V_main_arg2 (c : Dev nD) : V m c main_arg2 = m ((c : Thread nD τ).loc main_arg2) := by
  dsimp only [V, V0]; simp only [hostOps0, List.flatten_cons, List.flatten_nil, List.append_nil]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place: unfetched means the
    block index has not moved. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one `scf.if`: the innermost grid coordinate is zero. -/
abbrev cond0_0 (i : grid0.Coords) : Prop := (Scalar.cmpi .ne (Scalar.extui (Scalar.cmpi .eq (BitVec.ofNat 32 (i 2).val) 0#32)) 0#32) = 1#1
/-- It holds at the points ≡ 0 (mod 16): the first intermediate tile of each (expert, token tile). -/
theorem hcond0_0 : ∀ t : Fin cfg0.N, cond0_0 (grid0.coords t) ↔ t.val % 16 = 0 :=
  (by decide +kernel : ∀ t : Fin grid0.N, cond0_0 (grid0.coords t) ↔ t.val % 16 = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-! ## The memrefs the runs are stated over -/

/-- One staging buffer of the output window, through which its contents are stated. -/
abbrev VO0_4 : View sig .tc .vmem S1x1024x1024 .f32 := (Memref.whole cc0_stg4_0 : Memref sig .tc .vmem S1x1024x1024 .f32).view
/-- Each window's current staging memref at point `t`, as the pipeline passes it, and its wholeness. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1024 .f32 := win0_4.stage (cfg0.slots t 4)
abbrev hs0_4 (t : Fin cfg0.N) : (ms0_4 t).IsWhole := hstage0_4 ((cfg0.slots t 4).cast nbuf0_4)
/-- The scratch accumulator: a whole scoped buffer of the kernel's own. -/
abbrev scM0_0 : Memref sig .tc .vmem S1024x1024 .f32 := Memref.whole cc0_scratch0
/-- The accumulator as a view: what it holds is stated through it. -/
abbrev VS0_0 : View sig .tc .vmem S1024x1024 .f32 := scM0_0.view

/-- The region invariant of a kernel that names nothing between points, with the scratch accumulator as a memref
    owned at some contents: what the body obligation hands a run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KernelFr.RunA.lean ====
/-
  The body's run at a point where the innermost grid coordinate is zero: the accumulator is reset to zero, then the
  first intermediate tile's contribution is added and the sum copied to the output block. On whole staging memrefs,
  the four inputs at their contents, the output's and the accumulator's at anything, the body runs to the
  continuation holding the inputs as they were and the output's and the accumulator's buffers with the pieces its
  stores wrote, which the symbolic run finds.
-/
import proofs.«118436_j1614907703546_1_alg».proof.Proof.KernelFr.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging memref and in the accumulator (last first) where the
    reset branch is taken, with the run that leaves them. -/
noncomputable def kernelRun0_A (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : cond0_0 i)
    (x0 : Vec F S1x1024x1024 .f32) (x1 : Vec F S1x1024x256 .f32) (x2 : Vec F S1x1024x256 .f32) (x3 : Vec F S1x256x1024 .f32) :
    Σ' (L4 : List (View.Piece (Elt F) S1x1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8) K } := by
  refine ⟨?_, ?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Fr

end
-- ==== Proof.KernelFr.RunB.lean ====
/-
  The body's run at a point where the innermost grid coordinate is not zero: the next intermediate tile's
  contribution is added to what the accumulator holds and the sum copied to the output block. As the other run, the
  accumulator now entering at the contents the point before left.
-/
import proofs.«118436_j1614907703546_1_alg».proof.Proof.KernelFr.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging memref and in the accumulator (last first) where the
    reset branch is not taken, with the run that leaves them. -/
noncomputable def kernelRun0_B (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i)
    (x0 : Vec F S1x1024x1024 .f32) (x1 : Vec F S1x1024x256 .f32) (x2 : Vec F S1x1024x256 .f32) (x3 : Vec F S1x256x1024 .f32) (xs0 : Vec F S1024x1024 .f32) :
    Σ' (L4 : List (View.Piece (Elt F) S1x1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8) K } := by
  refine ⟨?_, ?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Fr

end
-- ==== Proof.KernelFr.Data.lean ====
/-
  What the output block and the accumulator hold after each grid point, the proof data of the pipeline, and the
  body's obligation at every point.

  The accumulator is carried from point to point: at a point with innermost coordinate zero it ends at zero plus
  that point's contribution, elsewhere at what the point before left plus this point's; the output's staging block
  always ends as a copy of the accumulator. `outsAt0` is that recursion over the points, each step the pieces the
  matching run found read back as contents. Two of the four input windows read one array (the gate half and the up
  half of the fused projection weights), so the proof data hold that array at half shares, one per window.
-/
import proofs.«118436_j1614907703546_1_alg».proof.Proof.KernelFr.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the reset run leaves in the output's staging block tile it, so they cover it. -/
theorem cover0_A_4 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : cond0_0 i)
    (x0 : Vec F S1x1024x1024 .f32) (x1 : Vec F S1x1024x256 .f32) (x2 : Vec F S1x1024x256 .f32) (x3 : Vec F S1x256x1024 .f32) (y : S1x1024x1024.Idx) :
    ∃ pc ∈ (kernelRun0_A c i arg3 harg3 arg4 harg4 arg5 harg5 arg6 harg6 arg7 harg7 arg8 harg8 hc0 x0 x1 x2 x3).1, y ∈ pc.1.set :=
  View.cover_of_tiledL (kernelRun0_A c i arg3 harg3 arg4 harg4 arg5 harg5 arg6 harg6 arg7 harg7 arg8 harg8 hc0 x0 x1 x2 x3).1 S1x1024x1024.size (by sl_kernel_rfl) y

/-- What the reset run leaves in the output's staging block: its pieces read back. -/
def out0_A_4 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : cond0_0 i)
    (x0 : Vec F S1x1024x1024 .f32) (x1 : Vec F S1x1024x256 .f32) (x2 : Vec F S1x1024x256 .f32) (x3 : Vec F S1x256x1024 .f32) : Vec F S1x1024x1024 .f32 :=
  VO0_4.read (Elt F) (VO0_4.writes (Elt F) VO0_4.junk (kernelRun0_A c i arg3 harg3 arg4 harg4 arg5 harg5 arg6 harg6 arg7 harg7 arg8 harg8 hc0 x0 x1 x2 x3).1)

/-- The pieces the reset run leaves in the accumulator cover it. -/
theorem scover0_A_0 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : cond0_0 i)
    (x0 : Vec F S1x1024x1024 .f32) (x1 : Vec F S1x1024x256 .f32) (x2 : Vec F S1x1024x256 .f32) (x3 : Vec F S1x256x1024 .f32) (y : S1024x1024.Idx) :
    ∃ pc ∈ (kernelRun0_A c i arg3 harg3 arg4 harg4 arg5 harg5 arg6 harg6 arg7 harg7 arg8 harg8 hc0 x0 x1 x2 x3).2.1, y ∈ pc.1.set :=
  View.cover_of_tiledL (kernelRun0_A c i arg3 harg3 arg4 harg4 arg5 harg5 arg6 harg6 arg7 harg7 arg8 harg8 hc0 x0 x1 x2 x3).2.1 S1024x1024.size (by sl_kernel_rfl) y

/-- What the reset run leaves in the accumulator: its pieces read back. -/
def sout0_A_0 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : cond0_0 i)
    (x0 : Vec F S1x1024x1024 .f32) (x1 : Vec F S1x1024x256 .f32) (x2 : Vec F S1x1024x256 .f32) (x3 : Vec F S1x256x1024 .f32) : Vec F S1024x1024 .f32 :=
  VS0_0.read (Elt F) (VS0_0.writes (Elt F) VS0_0.junk (kernelRun0_A c i arg3 harg3 arg4 harg4 arg5 harg5 arg6 harg6 arg7 harg7 arg8 harg8 hc0 x0 x1 x2 x3).2.1)

/-- The pieces the accumulating run leaves in the output's staging block tile it, so they cover it. -/
theorem cover0_B_4 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i)
    (x0 : Vec F S1x1024x1024 .f32) (x1 : Vec F S1x1024x256 .f32) (x2 : Vec F S1x1024x256 .f32) (x3 : Vec F S1x256x1024 .f32) (xs0 : Vec F S1024x1024 .f32) (y : S1x1024x1024.Idx) :
    ∃ pc ∈ (kernelRun0_B c i arg3 harg3 arg4 harg4 arg5 harg5 arg6 harg6 arg7 harg7 arg8 harg8 hc0 x0 x1 x2 x3 xs0).1, y ∈ pc.1.set :=
  View.cover_of_tiledL (kernelRun0_B c i arg3 harg3 arg4 harg4 arg5 harg5 arg6 harg6 arg7 harg7 arg8 harg8 hc0 x0 x1 x2 x3 xs0).1 S1x1024x1024.size (by sl_kernel_rfl) y

/-- What the accumulating run leaves in the output's staging block: its pieces read back. -/
def out0_B_4 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i)
    (x0 : Vec F S1x1024x1024 .f32) (x1 : Vec F S1x1024x256 .f32) (x2 : Vec F S1x1024x256 .f32) (x3 : Vec F S1x256x1024 .f32) (xs0 : Vec F S1024x1024 .f32) : Vec F S1x1024x1024 .f32 :=
  VO0_4.read (Elt F) (VO0_4.writes (Elt F) VO0_4.junk (kernelRun0_B c i arg3 harg3 arg4 harg4 arg5 harg5 arg6 harg6 arg7 harg7 arg8 harg8 hc0 x0 x1 x2 x3 xs0).1)

/-- The pieces the accumulating run leaves in the accumulator cover it. -/
theorem scover0_B_0 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i)
    (x0 : Vec F S1x1024x1024 .f32) (x1 : Vec F S1x1024x256 .f32) (x2 : Vec F S1x1024x256 .f32) (x3 : Vec F S1x256x1024 .f32) (xs0 : Vec F S1024x1024 .f32) (y : S1024x1024.Idx) :
    ∃ pc ∈ (kernelRun0_B c i arg3 harg3 arg4 harg4 arg5 harg5 arg6 harg6 arg7 harg7 arg8 harg8 hc0 x0 x1 x2 x3 xs0).2.1, y ∈ pc.1.set :=
  View.cover_of_tiledL (kernelRun0_B c i arg3 harg3 arg4 harg4 arg5 harg5 arg6 harg6 arg7 harg7 arg8 harg8 hc0 x0 x1 x2 x3 xs0).2.1 S1024x1024.size (by sl_kernel_rfl) y

/-- What the accumulating run leaves in the accumulator: its pieces read back. -/
def sout0_B_0 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i)
    (x0 : Vec F S1x1024x1024 .f32) (x1 : Vec F S1x1024x256 .f32) (x2 : Vec F S1x1024x256 .f32) (x3 : Vec F S1x256x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 arg8 harg8 hc0 x0 x1 x2 x3 xs0).2.1)

/-! ## What the output block and the accumulator hold after each point -/

/-- The accumulation: the output's staging block and the accumulator after the body at position `n`. Where the
    position is a multiple of 16 the reset run at the point's blocks; elsewhere the accumulating run over what the
    position before left in the accumulator. -/
def outsAt0 (c : Dev nD) : (n : ℕ) → n < cfg0.N → Vec F S1x1024x1024 .f32 × Vec F S1024x1024 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 16 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a reset point. -/
theorem outsAt0_A (c : Dev nD) (t : Fin cfg0.N) (h0 : t.val % 16 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at an accumulating point: over what the point before left. -/
theorem outsAt0_B (c : Dev nD) (t : Fin cfg0.N) (h0 : ¬t.val % 16 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the accumulator at anything; afterwards at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core `c`: the arrays as the region finds them; after the body at point `t` each input's
    buffer at its block and the output's at `outsAt0`; the invariant `PhiS`; nothing owed; the fused projection
    weights, read by two windows, at one half share each, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_eq (c : Dev nD) (t : Fin cfg0.N) (w : Fin cfg0.W) (hl : cfg0.idle w (grid0.coords t) = false) :
    (dats m 0 c).leavesExact w t = owns (c : Thread nD τ) ((cfg0.win w).stage (cfg0.slots t w)) fullShare ((dats m 0 c).after w t) := by
  unfold Dat.leavesExact; rw [hl]

set_option maxHeartbeats 4800000 in
/-- The body at any point. The inputs' staging memrefs hold their blocks; the closed form of the branch condition
    says which run applies; the invariant hands the body the accumulator at what the point before left (at anything
    before the first point, and at a reset point its contents are not consulted) and takes it back at this point's
    contents, the pieces covering it; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_eq m c t 0 (liveAt0_0 t), leaves_eq m c t 1 (liveAt0_1 t), leaves_eq m c t 2 (liveAt0_2 t), leaves_eq m c t 3 (liveAt0_3 t),
    leaves_eq m c t 4 (liveAt0_4 t), after0_0, after0_1, after0_2, after0_3, after0_4]
  by_cases h0 : t.val % 16 = 0
  · rw [outsAt0_A m c t h0]
    unfold out0_A_4 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
  · rw [outsAt0_B m c t h0]
    unfold out0_B_4 sout0_B_0; (try dsimp only)
    have hz : t.val ≠ 0 := fun h => h0 (by rw [h])
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 512 := N_0; omega)

end Cert.Kernel.Fr

end
-- ==== Proof.KernelFr.Split.lean ====
/-
  The launch's separation-logic bookkeeping that is particular to this program.

  Two input windows read the fused projection weights, one its gate half and one its up half, so that array's whole
  buffer is dealt to the two windows at one half share each when the region is entered, and the halves are joined
  again where the array is read after the run. After the region one host reshape copies the output array into the
  result buffer; it runs holding the output array and the result buffer, and leaves the output array as the region
  left it.
-/
import proofs.«118436_j1614907703546_1_alg».proof.Proof.KernelFr.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents when the second reshape runs: the output array as the region left it, every other buffer
    as the region found it. -/
def Wout (c : Dev nD) : Valuation τ sig (Elt F) :=
  Function.update (V0 m c) (Proc.devRef .tc main_v1) ((dats m 0 c).arrAt 4 cfg0.N)

/-- The result buffer after the second reshape. -/
def RES (c : Dev nD) : Buf (Elt F) ((c : Thread nD τ).loc main_v2) :=
  StableHlo.after hostOps1 (Wout m c) (Proc.devRef .tc main_v2)

/-- It is the output array's final contents, reshaped to (token, hidden). -/
theorem RES_eq (c : Dev nD) :
    RES m c = shapeCast S32768x1024 ((dats m 0 c).arrAt 4 cfg0.N : FVec F S16x2048x1024 .f32) shapeCasts_S16x2048x1024_S32768x1024 := by
  unfold RES Wout
  show StableHlo.after hostOps1 _ (Proc.devRef .tc main_v2) = _
  after_results
  rw [Function.update_self]
  rfl

/-- The two buffers no window reads, as the region finds them: they bypass the region. -/
def Zin (c : Dev nD) : sProp 𝕄 :=
  iprop((((c : Thread nD τ).loc main_arg0) ↦{fullShare} V m c main_arg0) ∗ (((c : Thread nD τ).loc main_v2) ↦{fullShare} V m c main_v2))

/-- The same after the second reshape has written the result buffer. -/
def Zout (c : Dev nD) : sProp 𝕄 :=
  iprop((((c : Thread nD τ).loc main_arg0) ↦{fullShare} V m c main_arg0) ∗ (((c : Thread nD τ).loc main_v2) ↦{fullShare} RES m c))

/-! ## The windows' arrays, one by one -/

/-- The five windows' arrays sit in four distinct buffers: the input, the fused projection weights (read by two
    windows), the down projection weights and the output. Each is held whole at the region-entry contents. -/
theorem arrBufs_eq (c : Dev nD) :
    (Pipeline.arrBufs (Ix := Unit) (Name := ℕ) (U := UR sig nD τ) (Lvl := ℕ) spec0 c (V m c) : sProp 𝕄)
      = iprop((((c : Thread nD τ).loc main_v0) ↦{fullShare} V m c main_v0) ∗ (((c : Thread nD τ).loc main_arg1) ↦{fullShare} V m c main_arg1)
          ∗ (((c : Thread nD τ).loc main_arg2) ↦{fullShare} V m c main_arg2) ∗ (((c : Thread nD τ).loc main_v1) ↦{fullShare} V m c main_v1)) := by
  unfold Pipeline.arrBufs
  exact BI.bigSep_eq_bigSepL_of_eq [main_v0, main_arg1, main_arg2, main_v1] (by decide) (by decide) _

/-- The proof data's arrays at any contents, window by window: every array is a whole buffer; the fused projection
    weights' buffer appears twice, at the left half share for the gate window and the right half for the up window;
    the others at the full share. -/
theorem arrays_chain (c : Dev nD) (G : (w : Fin cfg0.W) → Buf (Elt F) ((cfg0.win w).arr.view.loc (c.tc : Thread nD τ))) :
    ((dats m 0 c).arrays G : sProp 𝕄)
      = iprop((((c : Thread nD τ).loc main_v0) ↦{fullShare} G 0) ∗ (((c : Thread nD τ).loc main_arg1) ↦{fullShare.left} G 1)
          ∗ (((c : Thread nD τ).loc main_arg1) ↦{fullShare.right} G 2) ∗ (((c : Thread nD τ).loc main_arg2) ↦{fullShare} G 3)
          ∗ (((c : Thread nD τ).loc main_v1) ↦{fullShare} G 4)) := by
  unfold Dat.arrays
  rw [bigSep_W0]
  have h0 := (arr_whole0 0).set_eq_univ
  have h1 := (arr_whole0 1).set_eq_univ
  have h3 := (arr_whole0 3).set_eq_univ
  have h4 := (arr_whole0 4).set_eq_univ
  -- windows 1 and 2 have one array, so its element set is rewritten once for both
  rw [h0, h1, h3, h4]
  rfl

/-- ENTRY: the four distinct buffers behind the five windows' arrays, each whole at the region-entry contents, are the
    proof data's arrays at entry — the fused projection weights' buffer split into the two half shares. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_chain]
  iintro ⟨H0, H1, H2, H3⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H2]; · iexact H2
  iexact H3

/-! ## The reshape after the region -/

/-- The two buffers the second reshape touches: the output array, which it reads, and the result buffer, which it
    writes. -/
def tailBufs : Finset (DevRef τ sig) := {Proc.devRef .tc main_v1, Proc.devRef .tc main_v2}

/-- Those two held whole at a valuation are their two points-tos. -/
theorem held_tailBufs (c : Dev nD) (W : Valuation τ sig (Elt F)) :
    (StableHlo.held (c.tc : Thread nD τ) tailBufs W : sProp 𝕄)
      = iprop((((c : Thread nD τ).loc main_v1) ↦{fullShare} W (Proc.devRef .tc main_v1)) ∗ (((c : Thread nD τ).loc main_v2) ↦{fullShare} W (Proc.devRef .tc main_v2))) := by
  unfold StableHlo.held tailBufs
  rw [bigSep_insert (fun h => StableHlo.devRef_ne_of_ne (by decide : main_v1 ≠ main_v2) (Finset.mem_singleton.mp h)), bigSep_singleton]
  rfl

/-- Before the reshape the output array holds what the region left, -/
theorem Wout_v1 (c : Dev nD) : Wout m c (Proc.devRef .tc main_v1) = (dats m 0 c).arrAt 4 cfg0.N := by
  unfold Wout; rw [Function.update_self]

/-- and the result buffer what the region found. -/
theorem Wout_v2 (c : Dev nD) : Wout m c (Proc.devRef .tc main_v2) = V m c main_v2 := by
  unfold Wout; rw [Function.update_of_ne (StableHlo.devRef_ne_of_ne (by decide : main_v2 ≠ main_v1))]

/-- The reshape writes the result buffer only: the output array is after it what it was before. -/
theorem after_v1 (c : Dev nD) : StableHlo.after hostOps1 (Wout m c) (Proc.devRef .tc main_v1) = (dats m 0 c).arrAt 4 cfg0.N := by
  rw [StableHlo.after_of_forall_not_mem hostOps1 (Wout m c) fun op hop => ?_, Wout_v1]
  obtain rfl := List.mem_singleton.mp hop
  rw [StableHlo.reshape_writes]
  exact fun h => StableHlo.devRef_ne_of_ne (by decide : main_v1 ≠ main_v2) (Finset.mem_singleton.mp h)

/-- THE LINE AFTER THE REGION: from the region's exit — the boundary, the arrays at their final contents, the bypassing
    buffers — the second reshape runs and hands back the arrays unchanged and the bypassing buffers with the result
    buffer written. -/
theorem htail (c : Dev nD) (Q' : PUnit → sProp 𝕄) :
    iprop((iprop((dats m 0 c).arrays ((dats m 0 c).arrAt · cfg0.N) ∗ Zout m c) -∗ Q' ⟨⟩)
        ∗ boundary (c.tc : Thread nD τ) ∗ (dats m 0 c).arrays ((dats m 0 c).arrAt · cfg0.N) ∗ Zin m c)
      ⊢ wp frame (wpE (Pipeline.defs (pcfgs (F := F)) defs₀) (Variants.lift Variants.none) (c.tc : Thread nD τ) none) Set.univ
          (Pipeline.chain [StableHlo.seq hostOps1]) Q' := by
  -- the line run within its two buffers, from the contents before it to the contents after it
  have hrun := Pipeline.wp_seqs_then (Ix := Unit) (Name := ℕ) (U := UR sig nD τ) (Lvl := ℕ) (pcfgs (F := F)) defs₀ Variants.none c tailBufs [] (K := Q') [hostOps1]
    (fun ops hops op hop => by
      obtain rfl := List.mem_singleton.mp hops
      obtain rfl := List.mem_singleton.mp hop
      exact Finset.Subset.refl _)
    (fun ops hops op hop => by
      obtain rfl := List.mem_singleton.mp hops
      obtain rfl := List.mem_singleton.mp hop
      rfl)
    (Wout m c)
  rw [show ([hostOps1] : List (List (HloOp τ sig (Elt F)))).flatten = hostOps1 from rfl, held_tailBufs, held_tailBufs, Wout_v1, Wout_v2, after_v1,
    show StableHlo.after hostOps1 (Wout m c) (Proc.devRef .tc main_v2) = RES m c from rfl,
    Pipeline.chain_nil, wp_pure] at hrun
  rw [arrays_chain]
  unfold Zin Zout
  -- the output window's array out of the arrays and the result buffer out of the bypassing pair, the line, and back
  iintro ⟨Hk, Hb, ⟨A0, A1, A2, A3, A4⟩, ⟨Z0, Z2⟩⟩
  iapply hrun $$ [Hb A4 Z2]
  · isplitl [Hb]; · iexact Hb
    isplitl [A4]; · iexact A4
    iexact Z2
  iintro ⟨Hb, A4, Z2⟩
  imodintro
  iapply Hk
  isplitl [A0 A1 A2 A3 A4]
  · isplitl [A0]; · iexact A0
    isplitl [A1]; · iexact A1
    isplitl [A2]; · iexact A2
    isplitl [A3]; · iexact A3
    iexact A4
  isplitl [Z0]; · iexact Z0
  iexact Z2

/-- The bypassing buffers, held beside the state interpretation of a final state, say what that state's memory holds
    at them. -/
theorem hY (c : Dev nD) (s' : Phys nD τ sig (Elt F)) :
    iprop((∃ r, prngReg c r) ∗ Zout m c ∗ SI s')
      ⊢ |={Set.univ}=> iprop(⌜s'.mem.mem ((c.tc : Thread nD τ).loc main_arg0) = V m c main_arg0
            ∧ s'.mem.mem ((c.tc : Thread nD τ).loc main_v2) = RES m c⌝ ∗ SI s') := by
  unfold Zout
  iintro ⟨-, ⟨H0, H2⟩, HSI⟩
  icombine HSI H0 gives %h0
  icombine HSI H2 gives %h2
  imodintro
  isplitr
  · ipureintro; exact ⟨Buf.eq_of_forall_mem_univ h0, Buf.eq_of_forall_mem_univ h2⟩
  iexact HSI

/-- The unscoped buffers that are no window's array are those two. -/
theorem Zin_eq (c : Dev nD) :
    (Pipeline.unscopedRestP (Ix := Unit) (Name := ℕ) (U := UR sig nD τ) (Lvl := ℕ) Pipeline.Prefetch.none spec0 c (V m c) : sProp 𝕄) = Zin m c := by
  rw [Pipeline.unscopedRestP_none, unscopedRest0_eq]; rfl

end Cert.Kernel.Fr

end
-- ==== Proof.KernelFr.Launch.lean ====
/-
  The launch: @main's run from any memory with zero counters, and the frame.

  The library's launch theorem for one kernel region continued by host operations takes the pipeline's layout, the
  body obligation, how the arrays' buffers are dealt to the windows at entry, the invariant's two ends, the line after
  the region and how the final memory is read; it is instantiated here with the proof data of this kernel. The run
  ends with the result buffer at the output array's final contents reshaped, and the three arguments as launched.
-/
import proofs.«118436_j1614907703546_1_alg».proof.Proof.KernelFr.Split

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the run guarantees of the final memory. -/
def QF (r : PUnit × MemSt nD τ sig (Elt F)) : Prop :=
  ∀ c : Dev nD,
    r.2.mem ((c.tc : Thread nD τ).loc main_v2) = RES m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

/-- The reshaped hidden states, as the region finds them. -/
theorem V_main_v0 (c : Dev nD) :
    V m c main_v0 = shapeCast S16x2048x1024 (m ((c.tc : Thread nD τ).loc main_arg0) : FVec F S32768x1024 .f32) shapeCasts_S32768x1024_S16x2048x1024 := by
  dsimp only [V, V0]; simp only [hostOps0, List.flatten_cons, List.flatten_nil, List.append_nil]; after_results; rfl

-- the launch theorem's implicit arguments are found by unifying its conclusion with this one, which takes unfolding
-- plain definitions in a metavariable's type
set_option backward.isDefEq.respectTransparency.types false in
set_option maxHeartbeats 1600000 in
/-- At the compiled mesh, for any values, from any memory with zero counters: every weakly fair execution of @main
    terminates, nothing faulting, and the final memory satisfies `QF`. -/
theorem run_main : θ_run defs (onTc (τ := τ) (main (F := F))) (s₀ m ρ) (QF m) := by
  classical
  exact Pipeline.θ_run_region_pf_tail (pcfgs (F := F)) (fun q => (cfgs q).toPCfg_adm) (dats m) () cellOf_inj 0 winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := Zin m) (Z' := Zout m)
    (hX := fun c => by
      rw [Zin_eq]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => s.mem ((c.tc : Thread nD τ).loc main_arg0) = V m c main_arg0 ∧ s.mem ((c.tc : Thread nD τ).loc main_v2) = RES m c)
    (hY := hY m)
    (hQ := fun s h c => ⟨(h c).2.2.2, (h c).2.2.1.trans (V_main_arg0 m c),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c)))⟩)

/-- THE FRAME: @main runs to the end, faults nowhere, and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Fr

end
-- ==== Proof.KernelIdealFr.Runs.lean ====
/-
  What the two runs of the kernel body share, and @main around the region.

  @main is one reshape of the hidden states to (expert, token, hidden), the kernel region, and one reshape of the
  region's result back to (token, hidden). The region's grid is (expert e, token tile t, intermediate tile i) =
  16 × 2 × 16, the last axis innermost: the body resets its scratch accumulator where i = 0 and adds one
  intermediate tile's contribution at every point, so the points fall into two cases by their position mod 16.
  Stated here: the arrays as the region finds them, each input window's block at a point and that the body finds it
  in the window's staging buffer whether or not the pipeline fetched it there, the branch condition in closed form
  over the grid, and the staging and scratch memrefs the runs are stated over.
-/
import proofs.«118436_j1614907703546_1_alg».proof.Proof.Gen.KernelIdeal.Launch
import proofs.«118436_j1614907703546_1_alg».proof.Proof.Gen.KernelIdeal.Skeleton
import proofs.«118436_j1614907703546_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the first reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main reduces to the region continued by the second reshape, entered at the contents after the first. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show _ from hostOps0_sub)
    (show _ from hostOps0_fresh) main_chain

/-- The first reshape writes none of the three arguments: each reaches the region as launched. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results
theorem V_main_arg2 (c : Dev nD) : V m c main_arg2 = m ((c : Thread nD τ).loc main_arg2) := by
  dsimp only [V, V0]; simp only [hostOps0, List.flatten_cons, List.flatten_nil, List.append_nil]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place: unfetched means the
    block index has not moved. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one `scf.if`: the innermost grid coordinate is zero. -/
abbrev cond0_0 (i : grid0.Coords) : Prop := (Scalar.cmpi .ne (Scalar.extui (Scalar.cmpi .eq (BitVec.ofNat 32 (i 2).val) 0#32)) 0#32) = 1#1
/-- It holds at the points ≡ 0 (mod 16): the first intermediate tile of each (expert, token tile). -/
theorem hcond0_0 : ∀ t : Fin cfg0.N, cond0_0 (grid0.coords t) ↔ t.val % 16 = 0 :=
  (by decide +kernel : ∀ t : Fin grid0.N, cond0_0 (grid0.coords t) ↔ t.val % 16 = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-! ## The memrefs the runs are stated over -/

/-- One staging buffer of the output window, through which its contents are stated. -/
abbrev VO0_4 : View sig .tc .vmem S1x1024x1024 .f32 := (Memref.whole cc0_stg4_0 : Memref sig .tc .vmem S1x1024x1024 .f32).view
/-- Each window's current staging memref at point `t`, as the pipeline passes it, and its wholeness. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1024 .f32 := win0_4.stage (cfg0.slots t 4)
abbrev hs0_4 (t : Fin cfg0.N) : (ms0_4 t).IsWhole := hstage0_4 ((cfg0.slots t 4).cast nbuf0_4)
/-- The scratch accumulator: a whole scoped buffer of the kernel's own. -/
abbrev scM0_0 : Memref sig .tc .vmem S1024x1024 .f32 := Memref.whole cc0_scratch0
/-- The accumulator as a view: what it holds is stated through it. -/
abbrev VS0_0 : View sig .tc .vmem S1024x1024 .f32 := scM0_0.view

/-- The region invariant of a kernel that names nothing between points, with the scratch accumulator as a memref
    owned at some contents: what the body obligation hands a run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KernelIdealFr.RunA.lean ====
/-
  The body's run at a point where the innermost grid coordinate is zero: the accumulator is reset to zero, then the
  first intermediate tile's contribution is added and the sum copied to the output block. On whole staging memrefs,
  the four inputs at their contents, the output's and the accumulator's at anything, the body runs to the
  continuation holding the inputs as they were and the output's and the accumulator's buffers with the pieces its
  stores wrote, which the symbolic run finds.
-/
import proofs.«118436_j1614907703546_1_alg».proof.Proof.KernelIdealFr.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging memref and in the accumulator (last first) where the
    reset branch is taken, with the run that leaves them. -/
noncomputable def kernelRun0_A (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : cond0_0 i)
    (x0 : Vec F S1x1024x1024 .f32) (x1 : Vec F S1x1024x256 .f32) (x2 : Vec F S1x1024x256 .f32) (x3 : Vec F S1x256x1024 .f32) :
    Σ' (L4 : List (View.Piece (Elt F) S1x1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8) K } := by
  refine ⟨?_, ?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Fr

end
-- ==== Proof.KernelIdealFr.RunB.lean ====
/-
  The body's run at a point where the innermost grid coordinate is not zero: the next intermediate tile's
  contribution is added to what the accumulator holds and the sum copied to the output block. As the other run, the
  accumulator now entering at the contents the point before left.
-/
import proofs.«118436_j1614907703546_1_alg».proof.Proof.KernelIdealFr.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging memref and in the accumulator (last first) where the
    reset branch is not taken, with the run that leaves them. -/
noncomputable def kernelRun0_B (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i)
    (x0 : Vec F S1x1024x1024 .f32) (x1 : Vec F S1x1024x256 .f32) (x2 : Vec F S1x1024x256 .f32) (x3 : Vec F S1x256x1024 .f32) (xs0 : Vec F S1024x1024 .f32) :
    Σ' (L4 : List (View.Piece (Elt F) S1x1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__moe_kernel i arg3 harg3 arg4 harg4 arg5 harg5 arg6 harg6 arg7 harg7 arg8 harg8) K } := by
  refine ⟨?_, ?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Fr

end
-- ==== Proof.KernelIdealFr.Data.lean ====
/-
  What the output block and the accumulator hold after each grid point, the proof data of the pipeline, and the
  body's obligation at every point.

  The accumulator is carried from point to point: at a point with innermost coordinate zero it ends at zero plus
  that point's contribution, elsewhere at what the point before left plus this point's; the output's staging block
  always ends as a copy of the accumulator. `outsAt0` is that recursion over the points, each step the pieces the
  matching run found read back as contents. Two of the four input windows read one array (the gate half and the up
  half of the fused projection weights), so the proof data hold that array at half shares, one per window.
-/
import proofs.«118436_j1614907703546_1_alg».proof.Proof.KernelIdealFr.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the reset run leaves in the output's staging block tile it, so they cover it. -/
theorem cover0_A_4 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : cond0_0 i)
    (x0 : Vec F S1x1024x1024 .f32) (x1 : Vec F S1x1024x256 .f32) (x2 : Vec F S1x1024x256 .f32) (x3 : Vec F S1x256x1024 .f32) (y : S1x1024x1024.Idx) :
    ∃ pc ∈ (kernelRun0_A c i arg3 harg3 arg4 harg4 arg5 harg5 arg6 harg6 arg7 harg7 arg8 harg8 hc0 x0 x1 x2 x3).1, y ∈ pc.1.set :=
  View.cover_of_tiledL (kernelRun0_A c i arg3 harg3 arg4 harg4 arg5 harg5 arg6 harg6 arg7 harg7 arg8 harg8 hc0 x0 x1 x2 x3).1 S1x1024x1024.size (by sl_kernel_rfl) y

/-- What the reset run leaves in the output's staging block: its pieces read back. -/
def out0_A_4 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : cond0_0 i)
    (x0 : Vec F S1x1024x1024 .f32) (x1 : Vec F S1x1024x256 .f32) (x2 : Vec F S1x1024x256 .f32) (x3 : Vec F S1x256x1024 .f32) : Vec F S1x1024x1024 .f32 :=
  VO0_4.read (Elt F) (VO0_4.writes (Elt F) VO0_4.junk (kernelRun0_A c i arg3 harg3 arg4 harg4 arg5 harg5 arg6 harg6 arg7 harg7 arg8 harg8 hc0 x0 x1 x2 x3).1)

/-- The pieces the reset run leaves in the accumulator cover it. -/
theorem scover0_A_0 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : cond0_0 i)
    (x0 : Vec F S1x1024x1024 .f32) (x1 : Vec F S1x1024x256 .f32) (x2 : Vec F S1x1024x256 .f32) (x3 : Vec F S1x256x1024 .f32) (y : S1024x1024.Idx) :
    ∃ pc ∈ (kernelRun0_A c i arg3 harg3 arg4 harg4 arg5 harg5 arg6 harg6 arg7 harg7 arg8 harg8 hc0 x0 x1 x2 x3).2.1, y ∈ pc.1.set :=
  View.cover_of_tiledL (kernelRun0_A c i arg3 harg3 arg4 harg4 arg5 harg5 arg6 harg6 arg7 harg7 arg8 harg8 hc0 x0 x1 x2 x3).2.1 S1024x1024.size (by sl_kernel_rfl) y

/-- What the reset run leaves in the accumulator: its pieces read back. -/
def sout0_A_0 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : cond0_0 i)
    (x0 : Vec F S1x1024x1024 .f32) (x1 : Vec F S1x1024x256 .f32) (x2 : Vec F S1x1024x256 .f32) (x3 : Vec F S1x256x1024 .f32) : Vec F S1024x1024 .f32 :=
  VS0_0.read (Elt F) (VS0_0.writes (Elt F) VS0_0.junk (kernelRun0_A c i arg3 harg3 arg4 harg4 arg5 harg5 arg6 harg6 arg7 harg7 arg8 harg8 hc0 x0 x1 x2 x3).2.1)

/-- The pieces the accumulating run leaves in the output's staging block tile it, so they cover it. -/
theorem cover0_B_4 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i)
    (x0 : Vec F S1x1024x1024 .f32) (x1 : Vec F S1x1024x256 .f32) (x2 : Vec F S1x1024x256 .f32) (x3 : Vec F S1x256x1024 .f32) (xs0 : Vec F S1024x1024 .f32) (y : S1x1024x1024.Idx) :
    ∃ pc ∈ (kernelRun0_B c i arg3 harg3 arg4 harg4 arg5 harg5 arg6 harg6 arg7 harg7 arg8 harg8 hc0 x0 x1 x2 x3 xs0).1, y ∈ pc.1.set :=
  View.cover_of_tiledL (kernelRun0_B c i arg3 harg3 arg4 harg4 arg5 harg5 arg6 harg6 arg7 harg7 arg8 harg8 hc0 x0 x1 x2 x3 xs0).1 S1x1024x1024.size (by sl_kernel_rfl) y

/-- What the accumulating run leaves in the output's staging block: its pieces read back. -/
def out0_B_4 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i)
    (x0 : Vec F S1x1024x1024 .f32) (x1 : Vec F S1x1024x256 .f32) (x2 : Vec F S1x1024x256 .f32) (x3 : Vec F S1x256x1024 .f32) (xs0 : Vec F S1024x1024 .f32) : Vec F S1x1024x1024 .f32 :=
  VO0_4.read (Elt F) (VO0_4.writes (Elt F) VO0_4.junk (kernelRun0_B c i arg3 harg3 arg4 harg4 arg5 harg5 arg6 harg6 arg7 harg7 arg8 harg8 hc0 x0 x1 x2 x3 xs0).1)

/-- The pieces the accumulating run leaves in the accumulator cover it. -/
theorem scover0_B_0 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i)
    (x0 : Vec F S1x1024x1024 .f32) (x1 : Vec F S1x1024x256 .f32) (x2 : Vec F S1x1024x256 .f32) (x3 : Vec F S1x256x1024 .f32) (xs0 : Vec F S1024x1024 .f32) (y : S1024x1024.Idx) :
    ∃ pc ∈ (kernelRun0_B c i arg3 harg3 arg4 harg4 arg5 harg5 arg6 harg6 arg7 harg7 arg8 harg8 hc0 x0 x1 x2 x3 xs0).2.1, y ∈ pc.1.set :=
  View.cover_of_tiledL (kernelRun0_B c i arg3 harg3 arg4 harg4 arg5 harg5 arg6 harg6 arg7 harg7 arg8 harg8 hc0 x0 x1 x2 x3 xs0).2.1 S1024x1024.size (by sl_kernel_rfl) y

/-- What the accumulating run leaves in the accumulator: its pieces read back. -/
def sout0_B_0 (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i)
    (x0 : Vec F S1x1024x1024 .f32) (x1 : Vec F S1x1024x256 .f32) (x2 : Vec F S1x1024x256 .f32) (x3 : Vec F S1x256x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 arg8 harg8 hc0 x0 x1 x2 x3 xs0).2.1)

/-! ## What the output block and the accumulator hold after each point -/

/-- The accumulation: the output's staging block and the accumulator after the body at position `n`. Where the
    position is a multiple of 16 the reset run at the point's blocks; elsewhere the accumulating run over what the
    position before left in the accumulator. -/
def outsAt0 (c : Dev nD) : (n : ℕ) → n < cfg0.N → Vec F S1x1024x1024 .f32 × Vec F S1024x1024 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 16 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a reset point. -/
theorem outsAt0_A (c : Dev nD) (t : Fin cfg0.N) (h0 : t.val % 16 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at an accumulating point: over what the point before left. -/
theorem outsAt0_B (c : Dev nD) (t : Fin cfg0.N) (h0 : ¬t.val % 16 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the accumulator at anything; afterwards at
    what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core `c`: the arrays as the region finds them; after the body at point `t` each input's
    buffer at its block and the output's at `outsAt0`; the invariant `PhiS`; nothing owed; the fused projection
    weights, read by two windows, at one half share each, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_eq (c : Dev nD) (t : Fin cfg0.N) (w : Fin cfg0.W) (hl : cfg0.idle w (grid0.coords t) = false) :
    (dats m 0 c).leavesExact w t = owns (c : Thread nD τ) ((cfg0.win w).stage (cfg0.slots t w)) fullShare ((dats m 0 c).after w t) := by
  unfold Dat.leavesExact; rw [hl]

set_option maxHeartbeats 4800000 in
/-- The body at any point. The inputs' staging memrefs hold their blocks; the closed form of the branch condition
    says which run applies; the invariant hands the body the accumulator at what the point before left (at anything
    before the first point, and at a reset point its contents are not consulted) and takes it back at this point's
    contents, the pieces covering it; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_eq m c t 0 (liveAt0_0 t), leaves_eq m c t 1 (liveAt0_1 t), leaves_eq m c t 2 (liveAt0_2 t), leaves_eq m c t 3 (liveAt0_3 t),
    leaves_eq m c t 4 (liveAt0_4 t), after0_0, after0_1, after0_2, after0_3, after0_4]
  by_cases h0 : t.val % 16 = 0
  · rw [outsAt0_A m c t h0]
    unfold out0_A_4 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
  · rw [outsAt0_B m c t h0]
    unfold out0_B_4 sout0_B_0; (try dsimp only)
    have hz : t.val ≠ 0 := fun h => h0 (by rw [h])
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 512 := N_0; omega)

end Cert.KernelIdeal.Fr

end
-- ==== Proof.KernelIdealFr.Split.lean ====
/-
  The launch's separation-logic bookkeeping that is particular to this program.

  Two input windows read the fused projection weights, one its gate half and one its up half, so that array's whole
  buffer is dealt to the two windows at one half share each when the region is entered, and the halves are joined
  again where the array is read after the run. After the region one host reshape copies the output array into the
  result buffer; it runs holding the output array and the result buffer, and leaves the output array as the region
  left it.
-/
import proofs.«118436_j1614907703546_1_alg».proof.Proof.KernelIdealFr.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents when the second reshape runs: the output array as the region left it, every other buffer
    as the region found it. -/
def Wout (c : Dev nD) : Valuation τ sig (Elt F) :=
  Function.update (V0 m c) (Proc.devRef .tc main_v1) ((dats m 0 c).arrAt 4 cfg0.N)

/-- The result buffer after the second reshape. -/
def RES (c : Dev nD) : Buf (Elt F) ((c : Thread nD τ).loc main_v2) :=
  StableHlo.after hostOps1 (Wout m c) (Proc.devRef .tc main_v2)

/-- It is the output array's final contents, reshaped to (token, hidden). -/
theorem RES_eq (c : Dev nD) :
    RES m c = shapeCast S32768x1024 ((dats m 0 c).arrAt 4 cfg0.N : FVec F S16x2048x1024 .f32) shapeCasts_S16x2048x1024_S32768x1024 := by
  unfold RES Wout
  show StableHlo.after hostOps1 _ (Proc.devRef .tc main_v2) = _
  after_results
  rw [Function.update_self]
  rfl

/-- The two buffers no window reads, as the region finds them: they bypass the region. -/
def Zin (c : Dev nD) : sProp 𝕄 :=
  iprop((((c : Thread nD τ).loc main_arg0) ↦{fullShare} V m c main_arg0) ∗ (((c : Thread nD τ).loc main_v2) ↦{fullShare} V m c main_v2))

/-- The same after the second reshape has written the result buffer. -/
def Zout (c : Dev nD) : sProp 𝕄 :=
  iprop((((c : Thread nD τ).loc main_arg0) ↦{fullShare} V m c main_arg0) ∗ (((c : Thread nD τ).loc main_v2) ↦{fullShare} RES m c))

/-! ## The windows' arrays, one by one -/

/-- The five windows' arrays sit in four distinct buffers: the input, the fused projection weights (read by two
    windows), the down projection weights and the output. Each is held whole at the region-entry contents. -/
theorem arrBufs_eq (c : Dev nD) :
    (Pipeline.arrBufs (Ix := Unit) (Name := ℕ) (U := UR sig nD τ) (Lvl := ℕ) spec0 c (V m c) : sProp 𝕄)
      = iprop((((c : Thread nD τ).loc main_v0) ↦{fullShare} V m c main_v0) ∗ (((c : Thread nD τ).loc main_arg1) ↦{fullShare} V m c main_arg1)
          ∗ (((c : Thread nD τ).loc main_arg2) ↦{fullShare} V m c main_arg2) ∗ (((c : Thread nD τ).loc main_v1) ↦{fullShare} V m c main_v1)) := by
  unfold Pipeline.arrBufs
  exact BI.bigSep_eq_bigSepL_of_eq [main_v0, main_arg1, main_arg2, main_v1] (by decide) (by decide) _

/-- The proof data's arrays at any contents, window by window: every array is a whole buffer; the fused projection
    weights' buffer appears twice, at the left half share for the gate window and the right half for the up window;
    the others at the full share. -/
theorem arrays_chain (c : Dev nD) (G : (w : Fin cfg0.W) → Buf (Elt F) ((cfg0.win w).arr.view.loc (c.tc : Thread nD τ))) :
    ((dats m 0 c).arrays G : sProp 𝕄)
      = iprop((((c : Thread nD τ).loc main_v0) ↦{fullShare} G 0) ∗ (((c : Thread nD τ).loc main_arg1) ↦{fullShare.left} G 1)
          ∗ (((c : Thread nD τ).loc main_arg1) ↦{fullShare.right} G 2) ∗ (((c : Thread nD τ).loc main_arg2) ↦{fullShare} G 3)
          ∗ (((c : Thread nD τ).loc main_v1) ↦{fullShare} G 4)) := by
  unfold Dat.arrays
  rw [bigSep_W0]
  have h0 := (arr_whole0 0).set_eq_univ
  have h1 := (arr_whole0 1).set_eq_univ
  have h3 := (arr_whole0 3).set_eq_univ
  have h4 := (arr_whole0 4).set_eq_univ
  -- windows 1 and 2 have one array, so its element set is rewritten once for both
  rw [h0, h1, h3, h4]
  rfl

/-- ENTRY: the four distinct buffers behind the five windows' arrays, each whole at the region-entry contents, are the
    proof data's arrays at entry — the fused projection weights' buffer split into the two half shares. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_chain]
  iintro ⟨H0, H1, H2, H3⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H2]; · iexact H2
  iexact H3

/-! ## The reshape after the region -/

/-- The two buffers the second reshape touches: the output array, which it reads, and the result buffer, which it
    writes. -/
def tailBufs : Finset (DevRef τ sig) := {Proc.devRef .tc main_v1, Proc.devRef .tc main_v2}

/-- Those two held whole at a valuation are their two points-tos. -/
theorem held_tailBufs (c : Dev nD) (W : Valuation τ sig (Elt F)) :
    (StableHlo.held (c.tc : Thread nD τ) tailBufs W : sProp 𝕄)
      = iprop((((c : Thread nD τ).loc main_v1) ↦{fullShare} W (Proc.devRef .tc main_v1)) ∗ (((c : Thread nD τ).loc main_v2) ↦{fullShare} W (Proc.devRef .tc main_v2))) := by
  unfold StableHlo.held tailBufs
  rw [bigSep_insert (fun h => StableHlo.devRef_ne_of_ne (by decide : main_v1 ≠ main_v2) (Finset.mem_singleton.mp h)), bigSep_singleton]
  rfl

/-- Before the reshape the output array holds what the region left, -/
theorem Wout_v1 (c : Dev nD) : Wout m c (Proc.devRef .tc main_v1) = (dats m 0 c).arrAt 4 cfg0.N := by
  unfold Wout; rw [Function.update_self]

/-- and the result buffer what the region found. -/
theorem Wout_v2 (c : Dev nD) : Wout m c (Proc.devRef .tc main_v2) = V m c main_v2 := by
  unfold Wout; rw [Function.update_of_ne (StableHlo.devRef_ne_of_ne (by decide : main_v2 ≠ main_v1))]

/-- The reshape writes the result buffer only: the output array is after it what it was before. -/
theorem after_v1 (c : Dev nD) : StableHlo.after hostOps1 (Wout m c) (Proc.devRef .tc main_v1) = (dats m 0 c).arrAt 4 cfg0.N := by
  rw [StableHlo.after_of_forall_not_mem hostOps1 (Wout m c) fun op hop => ?_, Wout_v1]
  obtain rfl := List.mem_singleton.mp hop
  rw [StableHlo.reshape_writes]
  exact fun h => StableHlo.devRef_ne_of_ne (by decide : main_v1 ≠ main_v2) (Finset.mem_singleton.mp h)

/-- THE LINE AFTER THE REGION: from the region's exit — the boundary, the arrays at their final contents, the bypassing
    buffers — the second reshape runs and hands back the arrays unchanged and the bypassing buffers with the result
    buffer written. -/
theorem htail (c : Dev nD) (Q' : PUnit → sProp 𝕄) :
    iprop((iprop((dats m 0 c).arrays ((dats m 0 c).arrAt · cfg0.N) ∗ Zout m c) -∗ Q' ⟨⟩)
        ∗ boundary (c.tc : Thread nD τ) ∗ (dats m 0 c).arrays ((dats m 0 c).arrAt · cfg0.N) ∗ Zin m c)
      ⊢ wp frame (wpE (Pipeline.defs (pcfgs (F := F)) defs₀) (Variants.lift Variants.none) (c.tc : Thread nD τ) none) Set.univ
          (Pipeline.chain [StableHlo.seq hostOps1]) Q' := by
  -- the line run within its two buffers, from the contents before it to the contents after it
  have hrun := Pipeline.wp_seqs_then (Ix := Unit) (Name := ℕ) (U := UR sig nD τ) (Lvl := ℕ) (pcfgs (F := F)) defs₀ Variants.none c tailBufs [] (K := Q') [hostOps1]
    (fun ops hops op hop => by
      obtain rfl := List.mem_singleton.mp hops
      obtain rfl := List.mem_singleton.mp hop
      exact Finset.Subset.refl _)
    (fun ops hops op hop => by
      obtain rfl := List.mem_singleton.mp hops
      obtain rfl := List.mem_singleton.mp hop
      rfl)
    (Wout m c)
  rw [show ([hostOps1] : List (List (HloOp τ sig (Elt F)))).flatten = hostOps1 from rfl, held_tailBufs, held_tailBufs, Wout_v1, Wout_v2, after_v1,
    show StableHlo.after hostOps1 (Wout m c) (Proc.devRef .tc main_v2) = RES m c from rfl,
    Pipeline.chain_nil, wp_pure] at hrun
  rw [arrays_chain]
  unfold Zin Zout
  -- the output window's array out of the arrays and the result buffer out of the bypassing pair, the line, and back
  iintro ⟨Hk, Hb, ⟨A0, A1, A2, A3, A4⟩, ⟨Z0, Z2⟩⟩
  iapply hrun $$ [Hb A4 Z2]
  · isplitl [Hb]; · iexact Hb
    isplitl [A4]; · iexact A4
    iexact Z2
  iintro ⟨Hb, A4, Z2⟩
  imodintro
  iapply Hk
  isplitl [A0 A1 A2 A3 A4]
  · isplitl [A0]; · iexact A0
    isplitl [A1]; · iexact A1
    isplitl [A2]; · iexact A2
    isplitl [A3]; · iexact A3
    iexact A4
  isplitl [Z0]; · iexact Z0
  iexact Z2

/-- The bypassing buffers, held beside the state interpretation of a final state, say what that state's memory holds
    at them. -/
theorem hY (c : Dev nD) (s' : Phys nD τ sig (Elt F)) :
    iprop((∃ r, prngReg c r) ∗ Zout m c ∗ SI s')
      ⊢ |={Set.univ}=> iprop(⌜s'.mem.mem ((c.tc : Thread nD τ).loc main_arg0) = V m c main_arg0
            ∧ s'.mem.mem ((c.tc : Thread nD τ).loc main_v2) = RES m c⌝ ∗ SI s') := by
  unfold Zout
  iintro ⟨-, ⟨H0, H2⟩, HSI⟩
  icombine HSI H0 gives %h0
  icombine HSI H2 gives %h2
  imodintro
  isplitr
  · ipureintro; exact ⟨Buf.eq_of_forall_mem_univ h0, Buf.eq_of_forall_mem_univ h2⟩
  iexact HSI

/-- The unscoped buffers that are no window's array are those two. -/
theorem Zin_eq (c : Dev nD) :
    (Pipeline.unscopedRestP (Ix := Unit) (Name := ℕ) (U := UR sig nD τ) (Lvl := ℕ) Pipeline.Prefetch.none spec0 c (V m c) : sProp 𝕄) = Zin m c := by
  rw [Pipeline.unscopedRestP_none, unscopedRest0_eq]; rfl

end Cert.KernelIdeal.Fr

end
-- ==== Proof.KernelIdealFr.Launch.lean ====
/-
  The launch: @main's run from any memory with zero counters, and the frame.

  The library's launch theorem for one kernel region continued by host operations takes the pipeline's layout, the
  body obligation, how the arrays' buffers are dealt to the windows at entry, the invariant's two ends, the line after
  the region and how the final memory is read; it is instantiated here with the proof data of this kernel. The run
  ends with the result buffer at the output array's final contents reshaped, and the three arguments as launched.
-/
import proofs.«118436_j1614907703546_1_alg».proof.Proof.KernelIdealFr.Split

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the run guarantees of the final memory. -/
def QF (r : PUnit × MemSt nD τ sig (Elt F)) : Prop :=
  ∀ c : Dev nD,
    r.2.mem ((c.tc : Thread nD τ).loc main_v2) = RES m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

/-- The reshaped hidden states, as the region finds them. -/
theorem V_main_v0 (c : Dev nD) :
    V m c main_v0 = shapeCast S16x2048x1024 (m ((c.tc : Thread nD τ).loc main_arg0) : FVec F S32768x1024 .f32) shapeCasts_S32768x1024_S16x2048x1024 := by
  dsimp only [V, V0]; simp only [hostOps0, List.flatten_cons, List.flatten_nil, List.append_nil]; after_results; rfl

-- the launch theorem's implicit arguments are found by unifying its conclusion with this one, which takes unfolding
-- plain definitions in a metavariable's type
set_option backward.isDefEq.respectTransparency.types false in
set_option maxHeartbeats 1600000 in
/-- At the compiled mesh, for any values, from any memory with zero counters: every weakly fair execution of @main
    terminates, nothing faulting, and the final memory satisfies `QF`. -/
theorem run_main : θ_run defs (onTc (τ := τ) (main (F := F))) (s₀ m ρ) (QF m) := by
  classical
  exact Pipeline.θ_run_region_pf_tail (pcfgs (F := F)) (fun q => (cfgs q).toPCfg_adm) (dats m) () cellOf_inj 0 winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := Zin m) (Z' := Zout m)
    (hX := fun c => by
      rw [Zin_eq]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => s.mem ((c.tc : Thread nD τ).loc main_arg0) = V m c main_arg0 ∧ s.mem ((c.tc : Thread nD τ).loc main_v2) = RES m c)
    (hY := hY m)
    (hQ := fun s h c => ⟨(h c).2.2.2, (h c).2.2.1.trans (V_main_arg0 m c),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c)))⟩)

/-- THE FRAME: @main runs to the end, faults nowhere, and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Fr

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.KValue.Pay.lean ====
/-
  The body's arithmetic at an index, over the extended reals.

  With x a token tile of the hidden states (1024 tokens by 1024 hidden coordinates), g and u one intermediate tile's
  columns of the gate half and of the up half of the projection weights (1024 by 256 each) and d the matching rows of
  the down projection (256 by 1024), one grid point adds to the accumulator, at (p, q),

      Σ_{k < 256} ( U p k · ( G p k · σ (G p k) ) ) · d[k, q],   G p k = Σ_κ x[p, κ] · g[κ, k],   U likewise over u.

  The changes of float format are the identity over the extended reals, and each of the three matrix products is a
  plain sum over its contracted coordinate.
-/
import proofs.«118436_j1614907703546_1_alg».proof.Proof.Gen.KernelIdeal.Skeleton
import proofs.«118436_j1614907703546_1_alg».proof.Proof.LibPlainDot
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KV

open Cert.KernelIdeal Cert.KernelIdeal.Gen
open Idealize.ShloMosaic Idealize.ShloMosaic.ValueIdx

/-- One column sum of a block product: row p of the token tile against column k of a weight tile. -/
def bproj (x : Vec Ideal S1x1024x1024 .f32) (w : Vec Ideal S1x1024x256 .f32) (p : Fin 1024) (k : Fin 256) : EReal :=
  ∑ κ : Fin 1024, x (ix3 0 p κ) * w (ix3 0 κ k)

/-- One grid point's contribution to the accumulator at (p, q). -/
def bterm (x : Vec Ideal S1x1024x1024 .f32) (g u : Vec Ideal S1x1024x256 .f32) (d : Vec Ideal S1x256x1024 .f32)
    (p q : Fin 1024) : EReal :=
  ∑ k : Fin 256, (bproj x u p k * (bproj x g p k * Ideal.logistic (bproj x g p k))) * d (ix3 0 k q)

/-- A tile with a unit leading axis viewed without it reads (0, p, q) at (p, q). -/
theorem dropUnit_apply {α : Type} {a b : Nat} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 0 p q) := by
  refine (shapeCast_dropUnit_apply ![a, b] v h (ix2 p q)).trans (congrArg v ?_)
  funext c
  match c with
  | ⟨0, _⟩ => rfl
  | ⟨1, _⟩ => rfl
  | ⟨2, _⟩ => rfl

/-- A tile given a unit leading axis reads (p, q) at (0, p, q). -/
theorem addUnit_apply {α : Type} {a b : Nat} (v : (⟨2, ![a, b]⟩ : Shape).Idx → α)
    (h : (⟨2, ![a, b]⟩ : Shape).ShapeCasts ⟨3, ![1, a, b]⟩) (p : Fin a) (q : Fin b) :
    shapeCast ⟨3, ![1, a, b]⟩ v h (ix3 0 p q) = v (ix2 p q) := by
  refine (shapeCast_addUnit_apply ![a, b] v h (ix3 0 p q)).trans (congrArg v ?_)
  funext c
  match c with
  | ⟨0, _⟩ => rfl
  | ⟨1, _⟩ => rfl

/-- A projection's product at (p, k): the token tile's row p against the weight tile's column k. -/
theorem proj_apply (x : Vec Ideal S1x1024x1024 .f32) (w : Vec Ideal S1x1024x256 .f32) (p : Fin 1024) (k : Fin 256) :
    matmul dot_S1024x1024_S1024x256_S1024x256_1_0_0_1_n_n none
      (truncf .bf16 (shapeCast S1024x1024 x shapeCasts_S1x1024x1024_S1024x1024) bitsLt_bf16_f32)
      (truncf .bf16 (shapeCast S1024x256 w shapeCasts_S1x1024x256_S1024x256) bitsLt_bf16_f32)
      (constant (F := Ideal) S1024x256 .f32 0x00000000#32) (ix2 p k) = bproj x w p k := by
  refine (PlainDot.matmul_zero_plain dot_S1024x1024_S1024x256_S1024x256_1_0_0_1_n_n ⟨rfl, rfl, rfl, rfl, rfl, rfl⟩ none _ _ p k).trans ?_
  unfold bproj
  refine Finset.sum_congr rfl fun κ _ => ?_
  rw [truncf_apply, truncf_apply]
  rw [dropUnit_apply x _ p κ, dropUnit_apply w _ κ k]

/-- The accumulating store's value at (p, q): what the accumulator held plus this point's contribution. -/
theorem pay3_apply (x : Vec Ideal S1x1024x1024 .f32) (g u : Vec Ideal S1x1024x256 .f32) (d : Vec Ideal S1x256x1024 .f32)
    (acc : Vec Ideal S1024x1024 .f32) (p q : Fin 1024) :
    k0_pay3 (F := Ideal) x g u d acc (ix2 p q) = acc (ix2 p q) + bterm x g u d p q := by
  unfold k0_pay3
  rw [shapeCast_self]
  refine (addf_apply _ _ (ix2 p q)).trans (congrArg (acc (ix2 p q) + ·) ?_)
  refine (PlainDot.matmul_zero_plain dot_S1024x256_S256x1024_S1024x1024_1_0_0_1_n_n ⟨rfl, rfl, rfl, rfl, rfl, rfl⟩ none _ _ p q).trans ?_
  unfold bterm
  refine Finset.sum_congr rfl fun k _ => ?_
  rw [truncf_apply, truncf_apply, mulf_apply, mulf_apply]
  rw [dropUnit_apply d _ k q]
  rw [show ∀ (v : FVec Ideal S1024x256 .f32) (i : S1024x256.Idx), logistic v i = Ideal.logistic (v i) from fun _ _ => rfl]
  rw [proj_apply x g p k, proj_apply x u p k]

/-- The resetting store's value: zero everywhere. -/
theorem pay2_apply (p q : Fin 1024) : k0_pay2 (F := Ideal) (ix2 p q) = 0 := by
  unfold k0_pay2
  rw [shapeCast_self]
  exact Ideal.ofBits_zero_f32

/-- The output store's value: the accumulator with a unit leading axis. -/
theorem pay1_apply (v : Vec Ideal S1024x1024 .f32) (p q : Fin 1024) :
    k0_pay1 (F := Ideal) v (ix3 0 p q) = v (ix2 p q) := by
  unfold k0_pay1
  exact addUnit_apply v _ p q

end Cert.KernelIdeal.KV

end
-- ==== Proof.Spec.lean ====
/-
  The function both programs compute, over the extended reals.

  With x the hidden states grouped by expert (expert e, token t, hidden κ), W the fused gate/up projection weights
  (expert, hidden, 2·4096 columns: the first 4096 the gate half, the last 4096 the up half) and D the down
  projection weights (expert, intermediate j, hidden h):

      proj  e t j = Σ_κ x[e,t,κ] · W[e,κ,j]
      gated e t j = proj e t (4096 + j) · (proj e t j · σ(proj e t j)),   σ z = 1 / (1 + exp (−z))
      out   e t h = Σ_{j < 4096} gated e t j · D[e,j,h]

  The kernel forms the last sum as sixteen partial sums over 256 consecutive j each, added in order onto zero; the
  two agree because addition of extended reals is associative and commutative (`sum_tiles`).
-/
import Idealize.ShloMosaic.PureOps.Ideal
import Idealize.ShloMosaic.PureOps.Ideal.Laws
import Idealize.ShloMosaic.Lib.ValueIdx
import Mathlib.Algebra.BigOperators.Fin
import Mathlib.Data.Fintype.BigOperators
import Mathlib.Logic.Equiv.Fin.Basic

noncomputable section

open scoped BigOperators

namespace Cert.Spec

open Idealize.ShloMosaic Idealize.ShloMosaic.ValueIdx

abbrev SX3 : Shape := ⟨3, ![16, 2048, 1024]⟩
abbrev SW : Shape := ⟨3, ![16, 1024, 8192]⟩
abbrev SD : Shape := ⟨3, ![16, 4096, 1024]⟩

/-- One column of the fused projection: token (e, t) against column j of expert e's weights. -/
def proj (x : FVec Ideal SX3 .f32) (W : FVec Ideal SW .f32) (e : Fin 16) (t : Fin 2048) (j : Fin 8192) : EReal :=
  ∑ κ : Fin 1024, x (ix3 e t κ) * W (ix3 e κ j)

/-- Column j of the gate half and of the up half. -/
abbrev gateCol (j : Fin 4096) : Fin 8192 := ⟨j.val, by omega⟩
abbrev upCol (j : Fin 4096) : Fin 8192 := ⟨4096 + j.val, by omega⟩

/-- The gated activation: the up projection times the gate projection passed through x · σ(x). -/
def gated (x : FVec Ideal SX3 .f32) (W : FVec Ideal SW .f32) (e : Fin 16) (t : Fin 2048) (j : Fin 4096) : EReal :=
  proj x W e t (upCol j) * (proj x W e t (gateCol j) * Ideal.logistic (proj x W e t (gateCol j)))

/-- The result at expert e, token t, hidden coordinate h. -/
def outAt (x : FVec Ideal SX3 .f32) (W : FVec Ideal SW .f32) (D : FVec Ideal SD .f32) (e : Fin 16) (t : Fin 2048) (h : Fin 1024) : EReal :=
  ∑ j : Fin 4096, gated x W e t j * D (ix3 e j h)

/-- The result as an array (expert, token, hidden). -/
def G3 (x : FVec Ideal SX3 .f32) (W : FVec Ideal SW .f32) (D : FVec Ideal SD .f32) : FVec Ideal SX3 .f32 :=
  fun idx => outAt x W D (idx 0) (idx 1) (idx 2)

theorem G3_apply (x : FVec Ideal SX3 .f32) (W : FVec Ideal SW .f32) (D : FVec Ideal SD .f32) (e : Fin 16) (t : Fin 2048) (h : Fin 1024) :
    G3 x W D (ix3 e t h) = outAt x W D e t h := rfl

/-- Position j = 256·i + k of the intermediate axis, from its tile i and its place k in the tile. -/
abbrev tileIdx (i : Fin 16) (k : Fin 256) : Fin 4096 := ⟨256 * i.val + k.val, by omega⟩

/-- A sum over the intermediate axis is the sum over its sixteen tiles of the sums inside each tile. -/
theorem sum_tiles (f : Fin 4096 → EReal) : ∑ j : Fin 4096, f j = ∑ i : Fin 16, ∑ k : Fin 256, f (tileIdx i k) := by
  -- (i, k) ↦ 256·i + k is a bijection of Fin 16 × Fin 256 onto Fin 4096; sums are invariant under bijections,
  -- and a sum over a product is the iterated sum.
  rw [← Fintype.sum_prod_type' (fun (i : Fin 16) (k : Fin 256) => f (tileIdx i k))]
  refine (Fintype.sum_equiv (finProdFinEquiv : Fin 16 × Fin 256 ≃ Fin 4096) _ _ ?_).symm
  rintro ⟨i, k⟩
  congr 1
  apply Fin.ext
  show 256 * i.val + k.val = k.val + 256 * i.val
  omega

/-- Adding the tiles' sums one after the other onto zero, in order, gives the sum over all sixteen: the running sum
    after tile `n` (zero-based) is the sum over the tiles up to and including `n`. -/
def runSum (g : Fin 16 → EReal) : (n : Nat) → n < 16 → EReal
  | 0, h => 0 + g ⟨0, h⟩
  | n + 1, h => runSum g n (Nat.lt_of_succ_lt h) + g ⟨n + 1, h⟩

/-- The running sum after tile `n` is the sum of the first `n + 1` tiles. -/
theorem runSum_eq (g : Fin 16 → EReal) :
    ∀ (n : Nat) (h : n < 16), runSum g n h = ∑ i : Fin (n + 1), g (Fin.castLE (by omega) i)
  | 0, h => by
      rw [runSum, zero_add, Fin.sum_univ_one]
      rfl
  | n + 1, h => by
      rw [runSum, runSum_eq g n (Nat.lt_of_succ_lt h)]
      conv_rhs => rw [Fin.sum_univ_castSucc]
      rfl

theorem runSum_last (g : Fin 16 → EReal) : runSum g 15 (by omega) = ∑ i : Fin 16, g i := by
  rw [runSum_eq g 15 (by omega)]
  rfl

end Cert.Spec

end
-- ==== Proof.KValue.Acc.lean ====
/-
  What the accumulator holds after each grid point, over the extended reals.

  Inside one (expert, token tile) the sixteen points i = 0 … 15 run consecutively. The first resets the accumulator
  to zero and adds its contribution; each later one adds its own to what the point before left. So after point t the
  accumulator holds, at (p, q), the running sum of the contributions of the points from the start of t's group of
  sixteen up to t, and the output's staging block holds the same with a unit leading axis.
-/
import proofs.«118436_j1614907703546_1_alg».proof.Proof.KernelIdealFr.Data
import proofs.«118436_j1614907703546_1_alg».proof.Proof.KValue.Pay
import proofs.«118436_j1614907703546_1_alg».proof.Proof.Spec
import Idealize.ShloMosaic.Lib.Pipeline.Value
import Idealize.ShloMosaic.Lib.ValueIdx

set_option maxRecDepth 16384

noncomputable section

open scoped BigOperators

namespace Cert.KernelIdeal.KV

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The four input blocks at point `t`, at their literal types. -/
abbrev blkX (c : Dev nD) (t : Fin cfg0.N) : Vec Ideal S1x1024x1024 .f32 := iblk m c 0 t
abbrev blkG (c : Dev nD) (t : Fin cfg0.N) : Vec Ideal S1x1024x256 .f32 := iblk m c 1 t
abbrev blkU (c : Dev nD) (t : Fin cfg0.N) : Vec Ideal S1x1024x256 .f32 := iblk m c 2 t
abbrev blkD (c : Dev nD) (t : Fin cfg0.N) : Vec Ideal S1x256x1024 .f32 := iblk m c 3 t

/-- Point `t`'s contribution to the accumulator at (p, q). -/
def termAt (c : Dev nD) (t : Fin cfg0.N) (p q : Fin 1024) : EReal :=
  bterm (blkX m c t) (blkG m c t) (blkU m c t) (blkD m c t) p q

/-- The point `i` places after the start of `t`'s group of sixteen. -/
def grpPt (t : Fin cfg0.N) (i : Fin 16) : Fin cfg0.N :=
  ⟨t.val - t.val % 16 + i.val, by have := t.isLt; have : cfg0.N = 512 := N_0; omega⟩

/-! ## What each run leaves, as the body's arithmetic -/

theorem offs2_zero : (![0, 0] : Fin 2 → Nat) = fun _ => 0 := funext fun a => by fin_cases a <;> rfl
theorem offs3_zero : (![0, 0, 0] : Fin 3 → Nat) = fun _ => 0 := funext fun a => by fin_cases a <;> rfl

/-- At an accumulating point the accumulator ends at the accumulating store's value over what it held. -/
theorem sout0_B_0_eq {F : FTy → Type} [FloatOps F] (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (x0 : Vec F S1x1024x1024 .f32) (x1 : Vec F S1x1024x256 .f32) (x2 : Vec F S1x1024x256 .f32) (x3 : Vec F S1x256x1024 .f32) (xs0 : Vec F S1024x1024 .f32) :
    sout0_B_0 c i arg3 harg3 arg4 harg4 arg5 harg5 arg6 harg6 arg7 harg7 arg8 harg8 hc0 x0 x1 x2 x3 xs0 = k0_pay3 x0 x1 x2 x3 xs0 := by
  unfold sout0_B_0
  rw [View.read_writes_eq_canon _ _ _ (scover0_B_0 c i arg3 harg3 arg4 harg4 arg5 harg5 arg6 harg6 arg7 harg7 arg8 harg8 hc0 x0 x1 x2 x3 xs0)]
  unfold kernelRun0_B
  dsimp only
  sl_unfold_words
  rw [View.canon_unit_zero offs2_zero]
  simp only [View.readAt_eq_ld, harg3.read_unread, harg4.read_unread, harg5.read_unread, harg6.read_unread, harg8.read_unread, View.ld_unit_zero (S := S1x1024x1024) offs3_zero, View.ld_unit_zero (S := S1x1024x256) offs3_zero, View.ld_unit_zero (S := S1x256x1024) offs3_zero, View.ld_unit_zero (S := S1024x1024) offs2_zero]

/-- At an accumulating point the output's staging block ends at the new accumulator with a unit leading axis: the
    output store's operand is the accumulator read back after the accumulating store. -/
theorem out0_B_4_eq {F : FTy → Type} [FloatOps F] (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (x0 : Vec F S1x1024x1024 .f32) (x1 : Vec F S1x1024x256 .f32) (x2 : Vec F S1x1024x256 .f32) (x3 : Vec F S1x256x1024 .f32) (xs0 : Vec F S1024x1024 .f32) :
    out0_B_4 c i arg3 harg3 arg4 harg4 arg5 harg5 arg6 harg6 arg7 harg7 arg8 harg8 hc0 x0 x1 x2 x3 xs0 = k0_pay1 (k0_pay3 x0 x1 x2 x3 xs0) := by
  unfold out0_B_4
  rw [View.read_writes_eq_canon _ _ _ (cover0_B_4 c i arg3 harg3 arg4 harg4 arg5 harg5 arg6 harg6 arg7 harg7 arg8 harg8 hc0 x0 x1 x2 x3 xs0)]
  unfold kernelRun0_B
  dsimp only
  sl_unfold_words
  rw [View.canon_unit_zero offs3_zero]
  simp only [View.readAt_eq_ld, harg3.read_unread, harg4.read_unread, harg5.read_unread, harg6.read_unread, harg8.read_unread, View.ld_unit_zero (S := S1x1024x1024) offs3_zero, View.ld_unit_zero (S := S1x1024x256) offs3_zero, View.ld_unit_zero (S := S1x256x1024) offs3_zero, View.ld_unit_zero (S := S1024x1024) offs2_zero, View.readCov_unit_zero (S := S1024x1024) _ offs2_zero]

/-- At a reset point the accumulator ends at the accumulating store's value over zero: of its two stores the later
    covers, and what that one loaded is the zero the earlier one had just stored. -/
theorem sout0_A_0_eq {F : FTy → Type} [FloatOps F] (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : cond0_0 i) (x0 : Vec F S1x1024x1024 .f32) (x1 : Vec F S1x1024x256 .f32) (x2 : Vec F S1x1024x256 .f32) (x3 : Vec F S1x256x1024 .f32) :
    sout0_A_0 c i arg3 harg3 arg4 harg4 arg5 harg5 arg6 harg6 arg7 harg7 arg8 harg8 hc0 x0 x1 x2 x3 = k0_pay3 x0 x1 x2 x3 k0_pay2 := by
  unfold sout0_A_0
  rw [View.read_writes_eq_canon _ _ _ (scover0_A_0 c i arg3 harg3 arg4 harg4 arg5 harg5 arg6 harg6 arg7 harg7 arg8 harg8 hc0 x0 x1 x2 x3)]
  unfold kernelRun0_A
  dsimp only
  sl_unfold_words
  rw [View.canon_cons_unit_zero (S := S1024x1024) offs2_zero, View.readCov_unit_zero (S := S1024x1024) _ offs2_zero]
  simp only [View.readAt_eq_ld, harg3.read_unread, harg4.read_unread, harg5.read_unread, harg6.read_unread, View.ld_unit_zero (S := S1x1024x1024) offs3_zero, View.ld_unit_zero (S := S1x1024x256) offs3_zero, View.ld_unit_zero (S := S1x256x1024) offs3_zero, View.ld_unit_zero (S := S1024x1024) offs2_zero]

/-- At a reset point the output's staging block ends at that accumulator with a unit leading axis. -/
theorem out0_A_4_eq {F : FTy → Type} [FloatOps F] (c : Dev nD) (i : grid0.Coords) (arg3 : Memref sig .tc .vmem S1x1024x1024 .f32) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x1024 .f32) (harg7 : arg7.IsWhole) (arg8 : Memref sig .tc .vmem S1024x1024 .f32) (harg8 : arg8.IsWhole) (hc0 : cond0_0 i) (x0 : Vec F S1x1024x1024 .f32) (x1 : Vec F S1x1024x256 .f32) (x2 : Vec F S1x1024x256 .f32) (x3 : Vec F S1x256x1024 .f32) :
    out0_A_4 c i arg3 harg3 arg4 harg4 arg5 harg5 arg6 harg6 arg7 harg7 arg8 harg8 hc0 x0 x1 x2 x3 = k0_pay1 (k0_pay3 x0 x1 x2 x3 k0_pay2) := by
  unfold out0_A_4
  rw [View.read_writes_eq_canon _ _ _ (cover0_A_4 c i arg3 harg3 arg4 harg4 arg5 harg5 arg6 harg6 arg7 harg7 arg8 harg8 hc0 x0 x1 x2 x3)]
  unfold kernelRun0_A
  dsimp only
  sl_unfold_words
  rw [View.canon_unit_zero offs3_zero, View.readCov_cons_toLoadRect, View.readCov_unit_zero (S := S1024x1024) _ offs2_zero]
  simp only [View.readAt_eq_ld, harg3.read_unread, harg4.read_unread, harg5.read_unread, harg6.read_unread, View.ld_unit_zero (S := S1x1024x1024) offs3_zero, View.ld_unit_zero (S := S1x1024x256) offs3_zero, View.ld_unit_zero (S := S1x256x1024) offs3_zero, View.ld_unit_zero (S := S1024x1024) offs2_zero]

/-! ## The running sum, by its two equations -/

/-- The running sum at position zero, however the zero is spelt. -/
theorem runSum_zero' (g : Fin 16 → EReal) (b : ℕ) (hb : b < 16) (e : b = 0) :
    Cert.Spec.runSum g b hb = 0 + g ⟨b, hb⟩ := by
  subst e; rfl

/-- The running sum at a successor position, however the successor is spelt. -/
theorem runSum_succ' (g : Fin 16 → EReal) (a b : ℕ) (ha : a < 16) (hb : b < 16) (e : b = a + 1) :
    Cert.Spec.runSum g b hb = Cert.Spec.runSum g a ha + g ⟨b, hb⟩ := by
  subst e; rfl

/-- The point at place `t % 16` of `t`'s group is `t`. -/
theorem grpPt_self (t : Fin cfg0.N) (h : t.val % 16 < 16) : grpPt t ⟨t.val % 16, h⟩ = t := by
  apply Fin.ext
  show t.val - t.val % 16 + t.val % 16 = t.val
  have := Nat.mod_le t.val 16
  omega

/-- Consecutive points of one group have the same group. -/
theorem grpPt_pred (n : ℕ) (hn : n < cfg0.N) (hp : n - 1 < cfg0.N) (h0 : ¬n % 16 = 0) (i : Fin 16) :
    grpPt ⟨n - 1, hp⟩ i = grpPt ⟨n, hn⟩ i := by
  apply Fin.ext
  show n - 1 - (n - 1) % 16 + i.val = n - n % 16 + i.val
  omega

/-- The accumulator after the point at position `n`, by induction on the position: a reset point starts the running
    sum at zero plus its own contribution; an accumulating point adds its own to the running sum the point before
    left, which is the same group's, one place earlier. -/
theorem acc_eq_nat (c : Dev nD) (p q : Fin 1024) : ∀ (n : ℕ) (hn : n < cfg0.N),
    (outsAt0 (F := Ideal) m c n hn).2 (ix2 p q)
      = Cert.Spec.runSum (fun i => termAt m c (grpPt ⟨n, hn⟩ i) p q) (n % 16) (Nat.mod_lt _ (by norm_num)) := by
  intro n
  induction n using Nat.strong_induction_on with
  | _ n ih =>
    intro hn
    have hm : n % 16 < 16 := Nat.mod_lt _ (by norm_num)
    by_cases h0 : n % 16 = 0
    · rw [outsAt0_A m c ⟨n, hn⟩ h0]
      dsimp only
      refine (congrFun (sout0_A_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) ((hcond0_0 ⟨n, hn⟩).mpr h0) (blkX m c ⟨n, hn⟩) (blkG m c ⟨n, hn⟩) (blkU m c ⟨n, hn⟩) (blkD m c ⟨n, hn⟩)) (ix2 p q)).trans ?_
      rw [pay3_apply (blkX m c ⟨n, hn⟩) (blkG m c ⟨n, hn⟩) (blkU m c ⟨n, hn⟩) (blkD m c ⟨n, hn⟩) _ p q, pay2_apply p q,
        runSum_zero' (fun i => termAt m c (grpPt ⟨n, hn⟩ i) p q) (n % 16) hm h0]
      show _ = 0 + termAt m c (grpPt ⟨n, hn⟩ ⟨n % 16, hm⟩) p q
      rw [grpPt_self ⟨n, hn⟩ hm]
      rfl
    · have hp : n - 1 < cfg0.N := Nat.lt_of_le_of_lt (Nat.sub_le _ _) hn
      have hprev := ih (n - 1) (by omega) hp
      have hm' : (n - 1) % 16 < 16 := Nat.mod_lt _ (by norm_num)
      rw [outsAt0_B m c ⟨n, hn⟩ h0]
      dsimp only
      refine (congrFun (sout0_B_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) (fun h => h0 ((hcond0_0 ⟨n, hn⟩).mp h)) (blkX m c ⟨n, hn⟩) (blkG m c ⟨n, hn⟩) (blkU m c ⟨n, hn⟩) (blkD m c ⟨n, hn⟩) (outsAt0 (F := Ideal) m c (n - 1) hp).2) (ix2 p q)).trans ?_
      rw [pay3_apply (blkX m c ⟨n, hn⟩) (blkG m c ⟨n, hn⟩) (blkU m c ⟨n, hn⟩) (blkD m c ⟨n, hn⟩) _ p q, hprev,
        runSum_succ' (fun i => termAt m c (grpPt ⟨n, hn⟩ i) p q) ((n - 1) % 16) (n % 16) hm' hm (by omega)]
      have hg : (fun i => termAt m c (grpPt ⟨n - 1, hp⟩ i) p q) = (fun i => termAt m c (grpPt ⟨n, hn⟩ i) p q) :=
        funext fun i => by rw [grpPt_pred n hn hp h0 i]
      rw [hg]
      show _ = _ + termAt m c (grpPt ⟨n, hn⟩ ⟨n % 16, hm⟩) p q
      rw [grpPt_self ⟨n, hn⟩ hm]
      rfl

/-- After point `t` the accumulator holds the running sum of its group's contributions up to `t`. -/
theorem acc_eq (c : Dev nD) (t : Fin cfg0.N) (p q : Fin 1024) :
    (outsAt0 (F := Ideal) m c t.val t.isLt).2 (ix2 p q)
      = Cert.Spec.runSum (fun i => termAt m c (grpPt t i) p q) (t.val % 16) (Nat.mod_lt _ (by norm_num)) :=
  acc_eq_nat m c p q t.val t.isLt

/-- After point `t` the output's staging block is the accumulator with a unit leading axis. -/
theorem out_eq (c : Dev nD) (t : Fin cfg0.N) (p q : Fin 1024) :
    (outsAt0 (F := Ideal) m c t.val t.isLt).1 (ix3 0 p q) = (outsAt0 (F := Ideal) m c t.val t.isLt).2 (ix2 p q) := by
  by_cases h0 : t.val % 16 = 0
  · rw [outsAt0_A m c t h0]
    dsimp only
    refine (congrFun (out0_A_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (blkX m c t) (blkG m c t) (blkU m c t) (blkD m c t)) (ix3 0 p q)).trans ?_
    refine Eq.trans ?_ (congrFun (sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (blkX m c t) (blkG m c t) (blkU m c t) (blkD m c t)) (ix2 p q)).symm
    exact pay1_apply _ p q
  · rw [outsAt0_B m c t h0]
    dsimp only
    refine (congrFun (out0_B_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (blkX m c t) (blkG m c t) (blkU m c t) (blkD m c t) (outsAt0 (F := Ideal) m c (t.val - 1) (Nat.lt_of_le_of_lt (Nat.sub_le _ _) t.isLt)).2) (ix3 0 p q)).trans ?_
    refine Eq.trans ?_ (congrFun (sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (blkX m c t) (blkG m c t) (blkU m c t) (blkD m c t) (outsAt0 (F := Ideal) m c (t.val - 1) (Nat.lt_of_le_of_lt (Nat.sub_le _ _) t.isLt)).2) (ix2 p q)).symm
    exact pay1_apply _ p q

end Cert.KernelIdeal.KV

end
-- ==== Proof.KValue.Blocks.lean ====
/-
  The input blocks at a grid point, read off the arrays, and one point's contribution in the specification's terms.

  Point t = (e·2 + s)·16 + i of the grid is expert e, token tile s, intermediate tile i. Its token block is rows
  1024·s … 1024·s + 1023 of expert e's tokens; its gate block columns 256·i … of the gate half and its up block the
  same columns of the up half (4096 further on) of expert e's fused projection weights; its down block rows 256·i …
  of expert e's down projection.
-/
import proofs.«118436_j1614907703546_1_alg».proof.Proof.KernelIdealFr.Data
import proofs.«118436_j1614907703546_1_alg».proof.Proof.KValue.Pay
import proofs.«118436_j1614907703546_1_alg».proof.Proof.KValue.Acc
import proofs.«118436_j1614907703546_1_alg».proof.Proof.Spec
import Idealize.ShloMosaic.Lib.Pipeline.Value
import Idealize.ShloMosaic.Lib.ValueIdx

set_option maxRecDepth 16384

noncomputable section

open scoped BigOperators

namespace Cert.KernelIdeal.KV

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The grid point of expert `e`, token tile `s`, intermediate tile `i`. -/
def pt (e : Fin 16) (s : Fin 2) (i : Fin 16) : Fin cfg0.N :=
  ⟨(e.val * 2 + s.val) * 16 + i.val, by have : cfg0.N = 512 := N_0; omega⟩

/-- Row 1024·s + p of the 2048 tokens of one expert. -/
abbrev rowOf (s : Fin 2) (p : Fin 1024) : Fin 2048 := ⟨1024 * s.val + p.val, by omega⟩

/-- The arrays as the region finds them, at their literal types. -/
abbrev arrX (c : Dev nD) : FVec Ideal Cert.Spec.SX3 .f32 := V m c main_v0
abbrev arrW (c : Dev nD) : FVec Ideal Cert.Spec.SW .f32 := V m c main_arg1
abbrev arrD (c : Dev nD) : FVec Ideal Cert.Spec.SD .f32 := V m c main_arg2

/-! ## The block indices at a point

  Point t of the grid has expert t / 32, token tile t / 16 mod 2 and intermediate tile t mod 16. The token window's
  block index there is (expert, token tile, 0); the gate window's (expert, 0, intermediate tile); the up window's the
  same sixteen blocks further along the columns; the down window's (expert, intermediate tile, 0). Each is a finite
  statement over the 512 points. -/

theorem idxX : ∀ t : Fin cfg0.N, win0_0.index t (0 : Fin 3) = t.val / 32 ∧ win0_0.index t (1 : Fin 3) = t.val / 16 % 2
    ∧ win0_0.index t (2 : Fin 3) = 0 :=
  (by decide +kernel : ∀ t : Fin grid0.N, _)
theorem idxG : ∀ t : Fin cfg0.N, win0_1.index t (0 : Fin 3) = t.val / 32 ∧ win0_1.index t (1 : Fin 3) = 0
    ∧ win0_1.index t (2 : Fin 3) = t.val % 16 :=
  (by decide +kernel : ∀ t : Fin grid0.N, _)
theorem idxU : ∀ t : Fin cfg0.N, win0_2.index t (0 : Fin 3) = t.val / 32 ∧ win0_2.index t (1 : Fin 3) = 0
    ∧ win0_2.index t (2 : Fin 3) = 16 + t.val % 16 :=
  (by decide +kernel : ∀ t : Fin grid0.N, _)
theorem idxD : ∀ t : Fin cfg0.N, win0_3.index t (0 : Fin 3) = t.val / 32 ∧ win0_3.index t (1 : Fin 3) = t.val % 16
    ∧ win0_3.index t (2 : Fin 3) = 0 :=
  (by decide +kernel : ∀ t : Fin grid0.N, _)

/-- The linear position of the point (e, s, i). -/
theorem pt_val (e : Fin 16) (s : Fin 2) (i : Fin 16) : (pt e s i).val = (e.val * 2 + s.val) * 16 + i.val := rfl

/-! ## The blocks read off the arrays

  An element of a block sits in the array, on each axis, at the block index times the block's extent plus its own
  coordinate in the block. With the block indices above and t = (e·2 + s)·16 + i, so that t / 32 = e,
  t / 16 mod 2 = s and t mod 16 = i, that is the array coordinate claimed, axis by axis. -/

theorem blkX_apply (c : Dev nD) (e : Fin 16) (s : Fin 2) (i : Fin 16) (p κ : Fin 1024) :
    blkX m c (pt e s i) (ix3 0 p κ) = arrX m c (ix3 e (rowOf s p) κ) := by
  obtain ⟨e0, e1, e2⟩ := idxX (pt e s i)
  have hv := pt_val e s i
  have he := e.isLt; have hs := s.isLt; have hi := i.isLt
  show ((cfg0.win 0).blk (pt e s i)).view.read (Elt Ideal) (V m c main_v0) (ix3 0 p κ) = V m c main_v0 (ix3 e (rowOf s p) κ)
  rw [View.read_apply]
  show V m c main_v0 (((cfg0.win 0).blk (pt e s i)).view.emb (ix3 0 p κ)) = V m c main_v0 (ix3 e (rowOf s p) κ)
  congr 1
  funext a; apply Fin.ext
  match a with
  | ⟨0, _⟩ => show win0_0.index (pt e s i) (0 : Fin 3) * 1 + 1 * (0 : Fin 1).val = e.val; simp only [Fin.val_zero]; omega
  | ⟨1, _⟩ => show win0_0.index (pt e s i) (1 : Fin 3) * 1024 + 1 * p.val = 1024 * s.val + p.val; omega
  | ⟨2, _⟩ => show win0_0.index (pt e s i) (2 : Fin 3) * 1024 + 1 * κ.val = κ.val; omega
theorem blkG_apply (c : Dev nD) (e : Fin 16) (s : Fin 2) (i : Fin 16) (κ : Fin 1024) (k : Fin 256) :
    blkG m c (pt e s i) (ix3 0 κ k) = arrW m c (ix3 e κ (Cert.Spec.gateCol (Cert.Spec.tileIdx i k))) := by
  obtain ⟨e0, e1, e2⟩ := idxG (pt e s i)
  have hv := pt_val e s i
  have he := e.isLt; have hs := s.isLt; have hi := i.isLt
  show ((cfg0.win 1).blk (pt e s i)).view.read (Elt Ideal) (V m c main_arg1) (ix3 0 κ k) = V m c main_arg1 (ix3 e κ (Cert.Spec.gateCol (Cert.Spec.tileIdx i k)))
  rw [View.read_apply]
  show V m c main_arg1 (((cfg0.win 1).blk (pt e s i)).view.emb (ix3 0 κ k)) = V m c main_arg1 (ix3 e κ (Cert.Spec.gateCol (Cert.Spec.tileIdx i k)))
  congr 1
  funext a; apply Fin.ext
  match a with
  | ⟨0, _⟩ => show win0_1.index (pt e s i) (0 : Fin 3) * 1 + 1 * (0 : Fin 1).val = e.val; simp only [Fin.val_zero]; omega
  | ⟨1, _⟩ => show win0_1.index (pt e s i) (1 : Fin 3) * 1024 + 1 * κ.val = κ.val; omega
  | ⟨2, _⟩ => show win0_1.index (pt e s i) (2 : Fin 3) * 256 + 1 * k.val = 256 * i.val + k.val; omega
theorem blkU_apply (c : Dev nD) (e : Fin 16) (s : Fin 2) (i : Fin 16) (κ : Fin 1024) (k : Fin 256) :
    blkU m c (pt e s i) (ix3 0 κ k) = arrW m c (ix3 e κ (Cert.Spec.upCol (Cert.Spec.tileIdx i k))) := by
  obtain ⟨e0, e1, e2⟩ := idxU (pt e s i)
  have hv := pt_val e s i
  have he := e.isLt; have hs := s.isLt; have hi := i.isLt
  show ((cfg0.win 2).blk (pt e s i)).view.read (Elt Ideal) (V m c main_arg1) (ix3 0 κ k) = V m c main_arg1 (ix3 e κ (Cert.Spec.upCol (Cert.Spec.tileIdx i k)))
  rw [View.read_apply]
  show V m c main_arg1 (((cfg0.win 2).blk (pt e s i)).view.emb (ix3 0 κ k)) = V m c main_arg1 (ix3 e κ (Cert.Spec.upCol (Cert.Spec.tileIdx i k)))
  congr 1
  funext a; apply Fin.ext
  match a with
  | ⟨0, _⟩ => show win0_2.index (pt e s i) (0 : Fin 3) * 1 + 1 * (0 : Fin 1).val = e.val; simp only [Fin.val_zero]; omega
  | ⟨1, _⟩ => show win0_2.index (pt e s i) (1 : Fin 3) * 1024 + 1 * κ.val = κ.val; omega
  | ⟨2, _⟩ => show win0_2.index (pt e s i) (2 : Fin 3) * 256 + 1 * k.val = 4096 + (256 * i.val + k.val); omega
theorem blkD_apply (c : Dev nD) (e : Fin 16) (s : Fin 2) (i : Fin 16) (k : Fin 256) (q : Fin 1024) :
    blkD m c (pt e s i) (ix3 0 k q) = arrD m c (ix3 e (Cert.Spec.tileIdx i k) q) := by
  obtain ⟨e0, e1, e2⟩ := idxD (pt e s i)
  have hv := pt_val e s i
  have he := e.isLt; have hs := s.isLt; have hi := i.isLt
  show ((cfg0.win 3).blk (pt e s i)).view.read (Elt Ideal) (V m c main_arg2) (ix3 0 k q) = V m c main_arg2 (ix3 e (Cert.Spec.tileIdx i k) q)
  rw [View.read_apply]
  show V m c main_arg2 (((cfg0.win 3).blk (pt e s i)).view.emb (ix3 0 k q)) = V m c main_arg2 (ix3 e (Cert.Spec.tileIdx i k) q)
  congr 1
  funext a; apply Fin.ext
  match a with
  | ⟨0, _⟩ => show win0_3.index (pt e s i) (0 : Fin 3) * 1 + 1 * (0 : Fin 1).val = e.val; simp only [Fin.val_zero]; omega
  | ⟨1, _⟩ => show win0_3.index (pt e s i) (1 : Fin 3) * 256 + 1 * k.val = 256 * i.val + k.val; omega
  | ⟨2, _⟩ => show win0_3.index (pt e s i) (2 : Fin 3) * 1024 + 1 * q.val = q.val; omega

/-- One point's contribution is its intermediate tile's part of the specification's sum. -/
theorem termAt_eq (c : Dev nD) (e : Fin 16) (s : Fin 2) (i : Fin 16) (p q : Fin 1024) :
    termAt m c (pt e s i) p q
      = ∑ k : Fin 256, Cert.Spec.gated (arrX m c) (arrW m c) e (rowOf s p) (Cert.Spec.tileIdx i k)
          * arrD m c (ix3 e (Cert.Spec.tileIdx i k) q) := by
  -- Each block entry under the sums is the array entry above; what is left is the specification's own sums.
  unfold termAt bterm bproj
  simp only [blkX_apply, blkG_apply, blkU_apply, blkD_apply]
  unfold Cert.Spec.gated Cert.Spec.proj
  rfl

end Cert.KernelIdeal.KV

end
-- ==== Proof.KValue.Final.lean ====
/-
  The output array after the run is the specification's function of the arrays the region found.

  The pipeline writes the output block back after the last of each group of sixteen points, when the accumulator
  holds all sixteen tiles' contributions: the whole sum over the intermediate axis. Those 32 blocks tile the output
  array, so the array ends holding the specification's result everywhere.
-/
import proofs.«118436_j1614907703546_1_alg».proof.Proof.KernelIdealFr.Data
import proofs.«118436_j1614907703546_1_alg».proof.Proof.KValue.Pay
import proofs.«118436_j1614907703546_1_alg».proof.Proof.KValue.Acc
import proofs.«118436_j1614907703546_1_alg».proof.Proof.KValue.Blocks
import proofs.«118436_j1614907703546_1_alg».proof.Proof.Spec
import Idealize.ShloMosaic.Lib.Pipeline.Value
import Idealize.ShloMosaic.Lib.ValueIdx

set_option maxRecDepth 16384

noncomputable section

open scoped BigOperators

namespace Cert.KernelIdeal.KV

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The output window's block index at point t is (expert, token tile, 0). -/
theorem out_index : ∀ t : Fin cfg0.N, win0_4.index t (0 : Fin 3) = t.val / 32
    ∧ win0_4.index t (1 : Fin 3) = t.val / 16 % 2 ∧ win0_4.index t (2 : Fin 3) = 0 :=
  (by decide +kernel : ∀ t : Fin grid0.N, win0_4.index t (0 : Fin 3) = t.val / 32
    ∧ win0_4.index t (1 : Fin 3) = t.val / 16 % 2 ∧ win0_4.index t (2 : Fin 3) = 0)

/-- The running sum after the sixteenth tile is the sum over all sixteen. -/
theorem runSum_full (g : Fin 16 → EReal) (n : Nat) (hn : n < 16) (h : n = 15) :
    Cert.Spec.runSum g n hn = ∑ i : Fin 16, g i := by
  subst h; exact Cert.Spec.runSum_last g

/-- The expert and the token tile of a point. -/
abbrev expertOf (t : Fin cfg0.N) : Fin 16 := ⟨t.val / 32, by have := t.isLt; have : cfg0.N = 512 := N_0; omega⟩
abbrev tileOf (t : Fin cfg0.N) : Fin 2 := ⟨t.val / 16 % 2, by omega⟩

theorem grpPt_eq (t : Fin cfg0.N) (h15 : t.val % 16 = 15) (i : Fin 16) :
    grpPt t i = pt (expertOf t) (tileOf t) i := by
  apply Fin.ext
  show t.val - t.val % 16 + i.val = (t.val / 32 * 2 + t.val / 16 % 2) * 16 + i.val
  omega

/-- At the last point of a group of sixteen the output's staging block holds the specification's result
    for that expert and token tile. -/
theorem staged_last (c : Dev nD) (t : Fin cfg0.N) (h15 : t.val % 16 = 15) (p q : Fin 1024) :
    (outsAt0 (F := Ideal) m c t.val t.isLt).1 (ix3 0 p q)
      = Cert.Spec.outAt (arrX m c) (arrW m c) (arrD m c) (expertOf t) (rowOf (tileOf t) p) q := by
  rw [out_eq, acc_eq, runSum_full _ _ _ h15]
  unfold Cert.Spec.outAt
  rw [Cert.Spec.sum_tiles]
  refine Finset.sum_congr rfl fun i _ => ?_
  rw [grpPt_eq t h15 i, termAt_eq]

/-- Every index of the staging block has leading coordinate zero. -/
theorem block_idx (y : S1x1024x1024.Idx) : ∃ p q : Fin 1024, y = ix3 (0 : Fin 1) p q :=
  ⟨y 1, y 2, by
    funext a
    match a with
    | ⟨0, _⟩ => exact Fin.ext (by show (y 0).val = 0; have h : (y 0).val < 1 := (y 0).isLt; omega)
    | ⟨1, _⟩ => rfl
    | ⟨2, _⟩ => rfl⟩

/-- Where an element of the block written back at point t sits in the output array. -/
theorem out_emb (t : Fin cfg0.N) (p q : Fin 1024) :
    ((cfg0.win 4).blk t).view.emb (ix3 (0 : Fin 1) p q) = ix3 (expertOf t) (rowOf (tileOf t) p) q := by
  obtain ⟨e0, e1, e2⟩ := out_index t
  funext a; apply Fin.ext
  match a with
  | ⟨0, _⟩ => show win0_4.index t (0 : Fin 3) * 1 + 1 * 0 = t.val / 32; omega
  | ⟨1, _⟩ => show win0_4.index t (1 : Fin 3) * 1024 + 1 * p.val = 1024 * (t.val / 16 % 2) + p.val; omega
  | ⟨2, _⟩ => show win0_4.index t (2 : Fin 3) * 1024 + 1 * q.val = q.val; omega

/-- At the last point of a group the staging block is that point's block of the specification's result. -/
theorem staged_block (c : Dev nD) (t : Fin cfg0.N) (h15 : t.val % 16 = 15) (y : S1x1024x1024.Idx) :
    (outsAt0 (F := Ideal) m c t.val t.isLt).1 y
      = Cert.Spec.G3 (arrX m c) (arrW m c) (arrD m c) (((cfg0.win 4).blk t).view.emb y) := by
  obtain ⟨p, q, rfl⟩ := block_idx y
  rw [staged_last m c t h15 p q, out_emb t p q, Cert.Spec.G3_apply]

/-- What the write-back at a flushing point writes is its block of the specification's result. -/
theorem flushed4_eq (c : Dev nD) (t : Fin cfg0.N) (hf : (cfg0.win 4).flush t = true) :
    (dats (F := Ideal) m 0 c).flushed 4 t
      = ((cfg0.win 4).blk t).view.read (Elt Ideal) (Cert.Spec.G3 (arrX m c) (arrW m c) (arrD m c)) := by
  have h15 : t.val % 16 = 15 := (flush0_4 t).mp hf
  show (cfg0.win 4).cut (grid0.coords t) ((dats m 0 c).after 4 t) = _
  rw [after0_4]
  funext y
  exact staged_block m c t h15 y

/-- An index of the output array is in point t's block iff each coordinate is in the block's range on its axis. -/
theorem mem_blk4 (t : Fin cfg0.N) (i : S16x2048x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v1).slice (win0_4.rect t)).set ↔ _
  rw [View.set_slice_whole, Rect.mem_set_unit]
  exact Iff.rfl

/-- Every index (e, r, h) of the output array is in the block written back at the last point of
    the group of expert e and token tile r / 1024. -/
theorem covered4 (i : S16x2048x1024.Idx) :
    ∃ t : Fin cfg0.N, (cfg0.win 4).flush t = true ∧ i ∈ ((cfg0.win 4).blk t).view.set := by
  have hN : cfg0.N = 512 := N_0
  have h0 : (i 0).val < 16 := (i 0).isLt
  have h1 : (i 1).val < 2048 := (i 1).isLt
  have h2 : (i 2).val < 1024 := (i 2).isLt
  have ht : ((i 0).val * 2 + (i 1).val / 1024) * 16 + 15 < cfg0.N := by omega
  refine ⟨⟨((i 0).val * 2 + (i 1).val / 1024) * 16 + 15, ht⟩, (flush0_4 _).mpr ?_, ?_⟩
  · show (((i 0).val * 2 + (i 1).val / 1024) * 16 + 15) % 16 = 15; omega
  · rw [mem_blk4]
    obtain ⟨e0, e1, e2⟩ := out_index ⟨((i 0).val * 2 + (i 1).val / 1024) * 16 + 15, ht⟩
    have v : (⟨((i 0).val * 2 + (i 1).val / 1024) * 16 + 15, ht⟩ : Fin cfg0.N).val = ((i 0).val * 2 + (i 1).val / 1024) * 16 + 15 := rfl
    rw [v] at e0 e1
    intro a
    match a with
    | ⟨0, _⟩ =>
      show win0_4.index _ (0 : Fin 3) * 1 ≤ (i 0).val ∧ (i 0).val < win0_4.index _ (0 : Fin 3) * 1 + 1
      omega
    | ⟨1, _⟩ =>
      show win0_4.index _ (1 : Fin 3) * 1024 ≤ (i 1).val ∧ (i 1).val < win0_4.index _ (1 : Fin 3) * 1024 + 1024
      omega
    | ⟨2, _⟩ =>
      show win0_4.index _ (2 : Fin 3) * 1024 ≤ (i 2).val ∧ (i 2).val < win0_4.index _ (2 : Fin 3) * 1024 + 1024
      omega

/-- The output array's final contents. -/
theorem final4 (c : Dev nD) :
    ((dats (F := Ideal) m 0 c).arrAt 4 cfg0.N : FVec Ideal Cert.Spec.SX3 .f32)
      = Cert.Spec.G3 (arrX m c) (arrW m c) (arrD m c) :=
  (dats (F := Ideal) m 0 c).arrAt_eq_of_cover 4 (Cert.Spec.G3 (arrX m c) (arrW m c) (arrD m c))
    (fun t hf => flushed4_eq m c t hf) (fun i => covered4 i)

end Cert.KernelIdeal.KV

end
-- ==== Proof.RefValue.lean ====
/-
  The reference's result is the specification's function of the arguments.

  The reference groups the hidden states by expert (a reshape), forms the fused projection as one batched
  contraction over the hidden axis, cuts its last axis into the gate half (columns 0 … 4095) and the up half
  (columns 4096 … 8191), passes the gate half through z ↦ z · (1 / (1 + exp (−z))), multiplies by the up half,
  contracts the product with the down-projection weights over the intermediate axis, and ungroups (a reshape).
  Index by index: the first contraction at (e, t, c) is `Spec.proj` (the same sum over the hidden axis); a cut reads
  the projection at column j, resp. 4096 + j; 1 / (1 + exp (−z)) is, on the extended reals, the logistic function by
  its definition, the constant's word denoting 1; so the product at (e, t, j) is `Spec.gated`, and the second
  contraction at (e, t, h) is `Spec.outAt` — the array before the last reshape is `Spec.G3` of the grouped hidden
  states. The two reshapes stay as they are: the first is the argument of `Spec.G3`, the last wraps both sides.
-/
import proofs.«118436_j1614907703546_1_alg».proof.Defs
import proofs.«118436_j1614907703546_1_alg».proof.Proof.Gen.ReferenceIdeal.Run
import proofs.«118436_j1614907703546_1_alg».proof.Proof.Gen.ReferenceIdeal.Read
import proofs.«118436_j1614907703546_1_alg».proof.Proof.Spec

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The word of the constant in x · (1 / (1 + exp (−x))) denotes the extended real 1. -/
theorem ofBits_one : Ideal.ofBits .f32 0x3F800000#32 = 1 := by
  simp [Ideal.ofBits, Ideal.ieee, -EReal.coe_mul]; norm_num

/-- The fused projection at (expert e, token t, column c): the sum over the hidden axis of the grouped hidden
    states' row (e, t) against column c of expert e's weights. -/
theorem proj_apply (x : FVec Ideal S32768x1024 .f32) (W : FVec Ideal S16x1024x8192 .f32)
    (e : Fin 16) (t : Fin 2048) (c : Fin 8192) :
    val_main_v1 (F := Ideal) x W (ix3 e t c) = Cert.Spec.proj (val_main_v0 (F := Ideal) x) W e t c := by
  rw [val_main_v1_apply]
  unfold Cert.Spec.proj
  refine Finset.sum_congr rfl fun κ _ => ?_
  have el : lidx_main_v1 (ix3 e t c) κ = ix3 e t κ := funext fun a => Fin.ext (by
    match a with
    | ⟨0, _⟩ => rfl
    | ⟨1, _⟩ => rfl
    | ⟨2, _⟩ => rfl)
  have er : ridx_main_v1 (ix3 e t c) κ = ix3 e κ c := funext fun a => Fin.ext (by
    match a with
    | ⟨0, _⟩ => rfl
    | ⟨1, _⟩ => rfl
    | ⟨2, _⟩ => rfl)
  rw [el, er]

/-- The gate half at (e, t, j) is the projection's column j. -/
theorem gate_apply (x : FVec Ideal S32768x1024 .f32) (W : FVec Ideal S16x1024x8192 .f32)
    (e : Fin 16) (t : Fin 2048) (j : Fin 4096) :
    val_main_v2 (F := Ideal) x W (ix3 e t j) = Cert.Spec.proj (val_main_v0 (F := Ideal) x) W e t (Cert.Spec.gateCol j) := by
  have ei : idx_main_v2 (ix3 e t j) = ix3 e t (Cert.Spec.gateCol j) := funext fun a => Fin.ext (by
    match a with
    | ⟨0, _⟩ => rfl
    | ⟨1, _⟩ => rfl
    | ⟨2, _⟩ => rfl)
  rw [val_main_v2_apply, ei, proj_apply]

/-- The up half at (e, t, j) is the projection's column 4096 + j. -/
theorem up_apply (x : FVec Ideal S32768x1024 .f32) (W : FVec Ideal S16x1024x8192 .f32)
    (e : Fin 16) (t : Fin 2048) (j : Fin 4096) :
    val_main_v3 (F := Ideal) x W (ix3 e t j) = Cert.Spec.proj (val_main_v0 (F := Ideal) x) W e t (Cert.Spec.upCol j) := by
  have ei : idx_main_v3 (ix3 e t j) = ix3 e t (Cert.Spec.upCol j) := funext fun a => Fin.ext (by
    match a with
    | ⟨0, _⟩ => rfl
    | ⟨1, _⟩ => rfl
    | ⟨2, _⟩ => rfl)
  rw [val_main_v3_apply, ei, proj_apply]

/-- The gated activation at (e, t, j): the up column times the gate column passed through z ↦ z · σ(z), where
    1 / (1 + exp (−z)) is σ(z) by the logistic function's definition on the extended reals. -/
theorem gated_apply (x : FVec Ideal S32768x1024 .f32) (W : FVec Ideal S16x1024x8192 .f32)
    (e : Fin 16) (t : Fin 2048) (j : Fin 4096) :
    val_main_v5 (F := Ideal) x W (ix3 e t j) = Cert.Spec.gated (val_main_v0 (F := Ideal) x) W e t j := by
  rw [val_main_v5_apply, val_main_v4_apply, val_main_call0_v5_apply, val_main_call0_v4_apply, val_main_call0_cst_0_apply,
    val_main_call0_v3_apply, val_main_call0_v2_apply, val_main_call0_cst_apply, val_main_call0_v1_apply,
    val_main_call0_v0_apply, up_apply, gate_apply]
  simp only [Ideal.ofBits_def, ofBits_one, Ideal.mulf_def, Ideal.addf_def, Ideal.hostDivf_def, Ideal.hostUnary_exp_def,
    Ideal.hostNegf_def, Ideal.negf_def]
  rfl

/-- Before the last reshape the reference holds the specification's array of the grouped hidden states. -/
theorem grouped_eq (x : FVec Ideal S32768x1024 .f32) (W : FVec Ideal S16x1024x8192 .f32) (D : FVec Ideal S16x4096x1024 .f32) :
    val_main_v6 (F := Ideal) x W D = Cert.Spec.G3 (val_main_v0 (F := Ideal) x) W D := by
  funext i
  obtain ⟨e, t, h, rfl⟩ : ∃ (e : Fin 16) (t : Fin 2048) (h : Fin 1024), i = ix3 e t h := ⟨i 0, i 1, i 2, eq_ix3 i⟩
  rw [Cert.Spec.G3_apply, val_main_v6_apply]
  unfold Cert.Spec.outAt
  refine Finset.sum_congr rfl fun j _ => ?_
  have el : lidx_main_v6 (ix3 e t h) j = ix3 e t j := funext fun a => Fin.ext (by
    match a with
    | ⟨0, _⟩ => rfl
    | ⟨1, _⟩ => rfl
    | ⟨2, _⟩ => rfl)
  have er : ridx_main_v6 (ix3 e t h) j = ix3 e j h := funext fun a => Fin.ext (by
    match a with
    | ⟨0, _⟩ => rfl
    | ⟨1, _⟩ => rfl
    | ⟨2, _⟩ => rfl)
  rw [el, er, gated_apply]

/-- The reference's last stage is the specification's array, ungrouped. -/
theorem stage_eq (x : FVec Ideal S32768x1024 .f32) (W : FVec Ideal S16x1024x8192 .f32) (D : FVec Ideal S16x4096x1024 .f32) :
    val_main_v7 (F := Ideal) x W D
      = shapeCast S32768x1024 (Cert.Spec.G3 (shapeCast S16x2048x1024 x shapeCasts_S32768x1024_S16x2048x1024) W D) shapeCasts_S16x2048x1024_S32768x1024 := by
  unfold val_main_v7
  rw [grouped_eq]
  rfl

/-- The reference run's result term, at the extended reals, is the specification's function of the arguments. -/
theorem result_eq (x : FVec Ideal S32768x1024 .f32) (W : FVec Ideal S16x1024x8192 .f32) (D : FVec Ideal S16x4096x1024 .f32) :
    shapeCast _ (Host.dotGeneral dot_S16x2048x4096_S16x4096x1024_S16x2048x1024_2_1_1_2_0_0 none (mulf (extractStridedSlice S16x2048x4096 ![0, 0, 4096] (Host.dotGeneral dot_S16x2048x1024_S16x1024x8192_S16x2048x8192_2_1_1_2_0_0 none (shapeCast _ (x) shapeCasts_S32768x1024_S16x2048x1024) (W)) slices_S16x2048x8192_S16x2048x4096_0_0_4096) (mulf (extractStridedSlice S16x2048x4096 ![0, 0, 0] (Host.dotGeneral dot_S16x2048x1024_S16x1024x8192_S16x2048x8192_2_1_1_2_0_0 none (shapeCast _ (x) shapeCasts_S32768x1024_S16x2048x1024) (W)) slices_S16x2048x8192_S16x2048x4096_0_0_0) (Host.divf (broadcastInDim S16x2048x4096 ![] bcast_S_S16x2048x4096 (constant S_ .f32 0x3F800000#32)) (addf (broadcastInDim S16x2048x4096 ![] bcast_S_S16x2048x4096 (constant S_ .f32 0x3F800000#32)) (Host.exp (Host.negf (extractStridedSlice S16x2048x4096 ![0, 0, 0] (Host.dotGeneral dot_S16x2048x1024_S16x1024x8192_S16x2048x8192_2_1_1_2_0_0 none (shapeCast _ (x) shapeCasts_S32768x1024_S16x2048x1024) (W)) slices_S16x2048x8192_S16x2048x4096_0_0_0))))))) (D)) shapeCasts_S16x2048x1024_S32768x1024
      = shapeCast S32768x1024 (Cert.Spec.G3 (shapeCast S16x2048x1024 x shapeCasts_S32768x1024_S16x2048x1024) W D) shapeCasts_S16x2048x1024_S32768x1024 :=
  (val_main_v7_eq (F := Ideal) x W D).trans (stage_eq x W D)

/-- On every device, from any memory with zero counters, every weakly fair execution of the reference terminates
    with its result the specification's function of the arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = shapeCast S32768x1024 (Cert.Spec.G3 (shapeCast S16x2048x1024 (m ((c.tc : Thread nD τ).loc main_arg0)) shapeCasts_S32768x1024_S16x2048x1024) (m ((c.tc : Thread nD τ).loc main_arg1)) (m ((c.tc : Thread nD τ).loc main_arg2))) shapeCasts_S16x2048x1024_S32768x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c => ⟨(h c).1.trans (result_eq _ _ _), (h c).2⟩)
    (Cert.ReferenceIdeal.Value.run (F := Ideal) m ρ)

end Cert.ReferenceIdeal.RefValue

end
-- ==== Proof.lean ====
/-
  The certificate's five claims.

  The kernel computes, per expert, out = (up ∘ silu(gate)) · D with gate | up = x · W, feeding its matrix unit
  intermediate tile by intermediate tile and summing the sixteen tiles' contributions in a scratch accumulator; the
  reference computes the same with two batched products. Over the extended reals the changes of float format are the
  identity, the kernel's logistic is the reference's 1 / (1 + exp (−z)), each matrix product is the plain sum over its
  contracted coordinate, and the tile-by-tile sum is the whole sum because addition of extended reals is associative
  and commutative: both programs end with the specification's function of their arguments (`Cert.Spec.G3`), reshaped
  to (token, hidden).

  The frames of the two kernel programs are the launch of the one pipeline: the body's two control cases run
  symbolically, the accumulator tracked from point to point, the fused projection weights' buffer dealt at half shares
  to the two windows that read it. The reference's frame is its run with the result dropped. The idealization rewrote
  no operation, so the preservation claim is trivial.
-/
import proofs.«118436_j1614907703546_1_alg».proof.Defs
import proofs.«118436_j1614907703546_1_alg».proof.Proof.Gen.Kernel
import proofs.«118436_j1614907703546_1_alg».proof.Proof.Gen.KernelIdeal
import proofs.«118436_j1614907703546_1_alg».proof.Proof.Gen.ReferenceIdeal
import proofs.«118436_j1614907703546_1_alg».proof.Proof.Gen.Pre_finite_inputs
import proofs.«118436_j1614907703546_1_alg».proof.Proof.KernelFr.Launch
import proofs.«118436_j1614907703546_1_alg».proof.Proof.KernelIdealFr.Launch
import proofs.«118436_j1614907703546_1_alg».proof.Proof.KValue.Final
import proofs.«118436_j1614907703546_1_alg».proof.Proof.RefValue
import Idealize.ShloMosaic.Adequacy
import Idealize.ShloMosaic.Init

noncomputable section

namespace Cert.Proof

open Idealize.ShloMosaic Idealize.ShloMosaic.TcCoe Idealize.SL.Sem

/-- The kernel program's result buffer after the run, over the extended reals: the specification's function of the
    launch contents of the three arguments, reshaped to (token, hidden). -/
theorem kernel_result (m : (ℓ : Loc Cert.KernelIdeal.nD Cert.KernelIdeal.τ Cert.KernelIdeal.sig) → Buf (Elt Ideal) ℓ) (c : Dev Cert.KernelIdeal.nD) :
    Cert.KernelIdeal.Fr.RES (F := Ideal) m c
      = shapeCast Cert.KernelIdeal.S32768x1024
          (Cert.Spec.G3
            (shapeCast Cert.KernelIdeal.S16x2048x1024 (m ((c.tc : Thread Cert.KernelIdeal.nD Cert.KernelIdeal.τ).loc Cert.KernelIdeal.main_arg0) : FVec Ideal Cert.KernelIdeal.S32768x1024 .f32) Cert.KernelIdeal.Facts₀.shapeCasts_S32768x1024_S16x2048x1024)
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)))
          Cert.KernelIdeal.Facts₀.shapeCasts_S16x2048x1024_S32768x1024 := by
  rw [Cert.KernelIdeal.Fr.RES_eq, Cert.KernelIdeal.KV.final4]
  unfold Cert.KernelIdeal.KV.arrX Cert.KernelIdeal.KV.arrW Cert.KernelIdeal.KV.arrD
  rw [Cert.KernelIdeal.Fr.V_main_v0, Cert.KernelIdeal.Fr.V_main_arg1, Cert.KernelIdeal.Fr.V_main_arg2]

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Run from memories that agree on the arguments, the two idealized programs end with one result. -/
theorem algebraic : Cert.algebraic_KernelIdeal_ReferenceIdeal := by
  intro m ρ m' ρ' _ hagree
  refine ⟨_, (θ_run Cert.KernelIdeal.defs _ _).mono (fun _ h c => ⟨(h c).1.trans (kernel_result m c), (h c).2⟩)
    (Cert.KernelIdeal.Fr.run_main (F := Ideal) m ρ), ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
